-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4x96x96 : Shape := ⟨4, ![2, 4, 96, 96]⟩
abbrev S2x2x96x96 : Shape := ⟨4, ![2, 2, 96, 96]⟩
abbrev S_ : Shape := ⟨0, ![]⟩

class Facts : Prop where
  bcast_S_S2x4x96x96 : S_.BroadcastsInDim S2x4x96x96 (![] : Fin 0 → Fin S2x4x96x96.rank)
  reducesTo_S2x4x96x96_S_d0_1_2_3 : S2x4x96x96.ReducesTo [0, 1, 2, 3] S_
  h_S_ : 0 < S_.numel
  bcast_S_S2x2x96x96 : S_.BroadcastsInDim S2x2x96x96 (![] : Fin 0 → Fin S2x2x96x96.rank)
  reducesTo_S2x2x96x96_S_d0_1_2_3 : S2x2x96x96.ReducesTo [0, 1, 2, 3] S_

variable [Facts]

def fn {F : FTy → Type} [FloatOps F] (main_arg0 : FVec F S2x4x96x96 .f32) (main_arg1 : FVec F S2x2x96x96 .f32) : IVec S_ 1 :=
  let main_v0 : FVec F S2x4x96x96 .f32 := Host.absf main_arg0
  let main_cst : FVec F S_ .f32 := constant S_ .f32 0x7F800000#32
  let main_v1 : FVec F S2x4x96x96 .f32 := broadcastInDim S2x4x96x96 ![] bcast_S_S2x4x96x96 main_cst
  let main_v2 : IVec S2x4x96x96 1 := cmpf .olt main_v0 main_v1
  let main_c : IVec S_ 1 := constantI S_ 1 1#1
  let main_v3 : IVec S_ 1 := (fun x v => Host.reduce IntOp.andi x v reducesTo_S2x4x96x96_S_d0_1_2_3 h_S_) main_v2 main_c
  let main_v4 : FVec F S2x2x96x96 .f32 := Host.absf main_arg1
  let main_cst_0 : FVec F S_ .f32 := constant S_ .f32 0x7F800000#32
  let main_v5 : FVec F S2x2x96x96 .f32 := broadcastInDim S2x2x96x96 ![] bcast_S_S2x2x96x96 main_cst_0
  let main_v6 : IVec S2x2x96x96 1 := cmpf .olt main_v4 main_v5
  let main_c_1 : IVec S_ 1 := constantI S_ 1 1#1
  let main_v7 : IVec S_ 1 := (fun x v => Host.reduce IntOp.andi x v reducesTo_S2x2x96x96_S_d0_1_2_3 h_S_) main_v6 main_c_1
  let main_v8 : IVec S_ 1 := andi main_v3 main_v7
  main_v8
-- ==== Kernel.lean ====
abbrev S2x4x96x96 : Shape := ⟨4, ![2, 4, 96, 96]⟩
abbrev S2x2x96x96 : Shape := ⟨4, ![2, 2, 96, 96]⟩
abbrev S1x4 : Shape := ⟨2, ![1, 4]⟩
abbrev S2x1x96x96 : Shape := ⟨4, ![2, 1, 96, 96]⟩
abbrev S2x96x96 : Shape := ⟨3, ![2, 96, 96]⟩
abbrev S2x1x96 : Shape := ⟨3, ![2, 1, 96]⟩
abbrev S2x1 : Shape := ⟨2, ![2, 1]⟩
abbrev S2 : Shape := ⟨1, ![2]⟩
abbrev S1x2 : Shape := ⟨2, ![1, 2]⟩
abbrev S1 : Shape := ⟨1, ![1]⟩
abbrev S1x1 : Shape := ⟨2, ![1, 1]⟩
abbrev S2x4x96 : Shape := ⟨3, ![2, 4, 96]⟩
abbrev S2x4 : Shape := ⟨2, ![2, 4]⟩
abbrev S2x9216 : Shape := ⟨2, ![2, 9216]⟩
abbrev S2x768 : Shape := ⟨2, ![2, 768]⟩
abbrev S2x768x1 : Shape := ⟨3, ![2, 768, 1]⟩
abbrev S2x1x768 : Shape := ⟨3, ![2, 1, 768]⟩
abbrev S2x768x768 : Shape := ⟨3, ![2, 768, 768]⟩
abbrev S_ : Shape := ⟨0, ![]⟩

abbrev nBuf : Space → Nat
  | .hbm => 26
  | .vmem => 9
  | .smem => 0
  | _ => 0

abbrev bufTy : (tb : Table) → Fin (tcTables nBuf tb) → BufTy
  | .hbm, ⟨0, _⟩ => ⟨S2x4x96x96, .f32⟩
  | .hbm, ⟨1, _⟩ => ⟨S2x2x96x96, .f32⟩
  | .hbm, ⟨2, _⟩ => ⟨S1x4, .f32⟩
  | .hbm, ⟨3, _⟩ => ⟨S2x1x96x96, .f32⟩
  | .hbm, ⟨4, _⟩ => ⟨S2x9216, .f32⟩
  | .hbm, ⟨5, _⟩ => ⟨S1x1, .f32⟩
  | .hbm, ⟨6, _⟩ => ⟨S1x1, .f32⟩
  | .hbm, ⟨7, _⟩ => ⟨S_, .f32⟩
  | .hbm, ⟨8, _⟩ => ⟨S1x1, .f32⟩
  | .hbm, ⟨9, _⟩ => ⟨S_, .f32⟩
  | .hbm, ⟨10, _⟩ => ⟨S1x1, .f32⟩
  | .hbm, ⟨11, _⟩ => ⟨S_, .f32⟩
  | .hbm, ⟨12, _⟩ => ⟨S1x1, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .local _ .vmem, ⟨0, _⟩ => ⟨S2x4x96x96, .f32⟩
  | .local _ .vmem, ⟨1, _⟩ => ⟨S2x2x96x96, .f32⟩
  | .local _ .vmem, ⟨2, _⟩ => ⟨S1x4, .f32⟩
  | .local _ .vmem, ⟨3, _⟩ => ⟨S2x1x96x96, .f32⟩
  | .local _ .vmem, ⟨4, _⟩ => ⟨S2x768, .f32⟩
  | .local _ .vmem, ⟨5, _⟩ => ⟨S2x768, .f32⟩
  | .local _ .vmem, ⟨6, _⟩ => ⟨S2x768, .f32⟩
  | .local _ .vmem, ⟨7, _⟩ => ⟨S2x768, .f32⟩
  | .local _ .vmem, ⟨8, _⟩ => ⟨S1x1, .f32⟩
  | _, _ => ⟨S2x4x96x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 1 → Memref sig .tc .vmem S2x4x96x96 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x2x96x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1x96x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨2, ![12, 12], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

class Facts₀ : Prop where
  inb_S2x4x96x96_S2x4x96x96_0_0_0_0 : ∀ a, (![0, 0, 0, 0] : Fin 4 → Nat) a + S2x4x96x96.size a ≤ S2x4x96x96.size a
  h_S2x4x96x96 : 0 < S2x4x96x96.numel
  inb_S2x2x96x96_S2x2x96x96_0_0_0_0 : ∀ a, (![0, 0, 0, 0] : Fin 4 → Nat) a + S2x2x96x96.size a ≤ S2x2x96x96.size a
  h_S2x2x96x96 : 0 < S2x2x96x96.numel
  slices_S2x2x96x96_o0_1_0_0_S2x1x96x96 : S2x2x96x96.Slices ![0, 1, 0, 0] S2x1x96x96
  slices_S2x2x96x96_o0_0_0_0_S2x1x96x96 : S2x2x96x96.Slices ![0, 0, 0, 0] S2x1x96x96
  reduces_S2x4x96x96_S2x96x96 : S2x4x96x96.Reduces [1] S2x96x96
  shapeCasts_S2x96x96_S2x1x96x96 : S2x96x96.ShapeCasts S2x1x96x96
  reduces_S2x1x96x96_S2x1x96 : S2x1x96x96.Reduces [3] S2x1x96
  reduces_S2x1x96_S2x1 : S2x1x96.Reduces [2] S2x1
  reduces_S2x1_S2 : S2x1.Reduces [1] S2
  shapeCasts_S2_S1x2 : S2.ShapeCasts S1x2
  reduces_S1x2_S1 : S1x2.Reduces [1] S1
  shapeCasts_S1_S1x1 : S1.ShapeCasts S1x1
  inpos_S1x1_p0_0 : ∀ a, (![0, 0] : Fin 2 → Nat) a < S1x1.size a
  broadcasts_S2x1x96x96_S2x4x96x96 : S2x1x96x96.Broadcasts S2x4x96x96
  reduces_S2x4x96x96_S2x4x96 : S2x4x96x96.Reduces [3] S2x4x96
  reduces_S2x4x96_S2x4 : S2x4x96.Reduces [2] S2x4
  reduces_S2x4_S2 : S2x4.Reduces [1] S2
  natLt_1_32 : 1 < 32
  concatenates_S1x1_S1x1_S1x1_S1x1_S1x4_d1 : Shape.Concatenates [S1x1, S1x1, S1x1, S1x1] S1x4 1
  inb_S1x4_S1x4_0_0 : ∀ a, (![0, 0] : Fin 2 → Nat) a + S1x4.size a ≤ S1x4.size a
  h_S1x4 : 0 < S1x4.numel
  inb_S2x1x96x96_S2x1x96x96_0_0_0_0 : ∀ a, (![0, 0, 0, 0] : Fin 4 → Nat) a + S2x1x96x96.size a ≤ S2x1x96x96.size a
  h_S2x1x96x96 : 0 < S2x1x96x96.numel
  shapeCasts_S2x1x96x96_S2x9216 : S2x1x96x96.ShapeCasts S2x9216
  inb_S1x1_S1x1_0_0 : ∀ a, (![0, 0] : Fin 2 → Nat) a + S1x1.size a ≤ S1x1.size a
  h_S1x1 : 0 < S1x1.numel
  inb_S2x768_S2x768_0_0 : ∀ a, (![0, 0] : Fin 2 → Nat) a + S2x768.size a ≤ S2x768.size a
  h_S2x768 : 0 < S2x768.numel
  shapeCasts_S2x768_S2x768 : S2x768.ShapeCasts S2x768
  shapeCasts_S2x768_S2x768x1 : S2x768.ShapeCasts S2x768x1
  shapeCasts_S2x768_S2x1x768 : S2x768.ShapeCasts S2x1x768
  broadcasts_S2x768x1_S2x768x768 : S2x768x1.Broadcasts S2x768x768
  broadcasts_S2x1x768_S2x768x768 : S2x1x768.Broadcasts S2x768x768
  reduces_S2x768x768_S2x768 : S2x768x768.Reduces [2] S2x768
  reduces_S2x768_S2 : S2x768.Reduces [1] S2
  shapeCasts_S1x1_S1x1 : S1x1.ShapeCasts S1x1
  slices_S1x4_S1x1_0_0 : S1x4.Slices ![0, 0] S1x1
  shapeCasts_S1x1_S_ : S1x1.ShapeCasts S_
  slices_S1x4_S1x1_0_1 : S1x4.Slices ![0, 1] S1x1
  slices_S1x4_S1x1_0_2 : S1x4.Slices ![0, 2] S1x1
  slices_S1x4_S1x1_0_3 : S1x4.Slices ![0, 3] S1x1
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2x4x96x96.size a ≤ S2x4x96x96.size a
  hwx0_0 : ∀ i : grid0.Coords, EltTy.bits .f32 = 32 ∨ (Rect.block (s := S2x4x96x96) S2x4x96x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x2x96x96.size a ≤ S2x2x96x96.size a
  hwx0_1 : ∀ i : grid0.Coords, EltTy.bits .f32 = 32 ∨ (Rect.block (s := S2x2x96x96) S2x2x96x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4.size a ≤ S1x4.size a
  hwx0_2 : ∀ i : grid0.Coords, EltTy.bits .f32 = 32 ∨ (Rect.block (s := S1x4) S1x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x1x96x96.size a ≤ S2x1x96x96.size a
  hwx0_3 : ∀ i : grid0.Coords, EltTy.bits .f32 = 32 ∨ (Rect.block (s := S2x1x96x96) S2x1x96x96.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x768.size a ≤ S2x9216.size a
  hwx1_0 : ∀ i : grid1.Coords, EltTy.bits .f32 = 32 ∨ (Rect.block (s := S2x9216) S2x768.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2x768.size a ≤ S2x9216.size a
  hwx1_1 : ∀ i : grid1.Coords, EltTy.bits .f32 = 32 ∨ (Rect.block (s := S2x9216) S2x768.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)

variable [Facts₀]

abbrev win0_0 : Pipeline.Window sig grid0 :=
  Pipeline.Window.ofSpec (Memref.whole main_arg0) S2x4x96x96.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x2x96x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x4.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S2x1x96x96.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S2x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2x768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S2x4x96x96 : Shape := ⟨4, ![2, 4, 96, 96]⟩
abbrev S2x2x96x96 : Shape := ⟨4, ![2, 2, 96, 96]⟩
abbrev S2x1x96x96 : Shape := ⟨4, ![2, 1, 96, 96]⟩
abbrev S2x96x96 : Shape := ⟨3, ![2, 96, 96]⟩
abbrev S_ : Shape := ⟨0, ![]⟩
abbrev S2x9216 : Shape := ⟨2, ![2, 9216]⟩
abbrev S2x9216x1 : Shape := ⟨3, ![2, 9216, 1]⟩
abbrev S2x1x9216 : Shape := ⟨3, ![2, 1, 9216]⟩
abbrev S2x9216x9216 : Shape := ⟨3, ![2, 9216, 9216]⟩

abbrev nBuf : Space → Nat
  | .hbm => 89
  | .vmem => 0
  | .smem => 0
  | _ => 0

abbrev bufTy : (tb : Table) → Fin (tcTables nBuf tb) → BufTy
  | .hbm, ⟨0, _⟩ => ⟨S2x4x96x96, .f32⟩
  | .hbm, ⟨1, _⟩ => ⟨S2x2x96x96, .f32⟩
  | .hbm, ⟨2, _⟩ => ⟨S2x1x96x96, .f32⟩
  | .hbm, ⟨3, _⟩ => ⟨S2x1x96x96, .f32⟩
  | .hbm, ⟨4, _⟩ => ⟨S2x96x96, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S2x4x96x96, .f32⟩
  | .hbm, ⟨10, _⟩ => ⟨S_, .f32⟩
  | .hbm, ⟨11, _⟩ => ⟨S2x96x96, .f32⟩
  | .hbm, ⟨12, _⟩ => ⟨S2x1x96x96, .f32⟩
  | .hbm, ⟨13, _⟩ => ⟨S2x1x96x96, .f32⟩
  | .hbm, ⟨14, _⟩ => ⟨S2x1x96x96, .f32⟩
  | .hbm, ⟨15, _⟩ => ⟨S2x1x96x96, .f32⟩
  | .hbm, ⟨16, _⟩ => ⟨S2x1x96x96, .f32⟩
  | .hbm, ⟨17, _⟩ => ⟨S_, .f32⟩
  | .hbm, ⟨18, _⟩ => ⟨S2x1x96x96, .f32⟩
  | .hbm, ⟨19, _⟩ => ⟨S2x1x96x96, .i1⟩
  | .hbm, ⟨20, _⟩ => ⟨S_, .f32⟩
  | .hbm, ⟨21, _⟩ => ⟨S2x1x96x96, .f32⟩
  | .hbm, ⟨22, _⟩ => ⟨S2x1x96x96, .f32⟩
  | .hbm, ⟨23, _⟩ => ⟨S2x1x96x96, .f32⟩
  | .hbm, ⟨24, _⟩ => ⟨S_, .f32⟩
  | .hbm, ⟨25, _⟩ => ⟨S2x1x96x96, .f32⟩
  | .hbm, ⟨26, _⟩ => ⟨S2x1x96x96, .f32⟩
  | .hbm, ⟨27, _⟩ => ⟨S2x1x96x96, .f32⟩
  | .hbm, ⟨28, _⟩ => ⟨S2x1x96x96, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S2x1x96x96, .f32⟩
  | .hbm, ⟨36, _⟩ => ⟨S2x1x96x96, .f32⟩
  | .hbm, ⟨37, _⟩ => ⟨S2x4x96x96, .f32⟩
  | .hbm, ⟨38, _⟩ => ⟨S2x4x96x96, .f32⟩
  | .hbm, ⟨39, _⟩ => ⟨S2x4x96x96, .f32⟩
  | .hbm, ⟨40, _⟩ => ⟨S2x4x96x96, .f32⟩
  | .hbm, ⟨41, _⟩ => ⟨S_, .f32⟩
  | .hbm, ⟨42, _⟩ => ⟨S2x96x96, .f32⟩
  | .hbm, ⟨43, _⟩ => ⟨S2x1x96x96, .f32⟩
  | .hbm, ⟨44, _⟩ => ⟨S_, .f32⟩
  | .hbm, ⟨45, _⟩ => ⟨S2x1x96x96, .f32⟩
  | .hbm, ⟨46, _⟩ => ⟨S2x1x96x96, .f32⟩
  | .hbm, ⟨47, _⟩ => ⟨S2x1x96x96, .f32⟩
  | .hbm, ⟨48, _⟩ => ⟨S2x4x96x96, .f32⟩
  | .hbm, ⟨49, _⟩ => ⟨S2x4x96x96, .f32⟩
  | .hbm, ⟨50, _⟩ => ⟨S2x4x96x96, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S2x96x96, .f32⟩
  | .hbm, ⟨55, _⟩ => ⟨S2x96x96, .f32⟩
  | .hbm, ⟨56, _⟩ => ⟨S2x96x96, .f32⟩
  | .hbm, ⟨57, _⟩ => ⟨S2x9216, .f32⟩
  | .hbm, ⟨58, _⟩ => ⟨S_, .f32⟩
  | .hbm, ⟨59, _⟩ => ⟨S2x9216, .f32⟩
  | .hbm, ⟨60, _⟩ => ⟨S2x9216, .i1⟩
  | .hbm, ⟨61, _⟩ => ⟨S2x9216, .f32⟩
  | .hbm, ⟨62, _⟩ => ⟨S2x9216x1, .f32⟩
  | .hbm, ⟨63, _⟩ => ⟨S2x1x9216, .f32⟩
  | .hbm, ⟨64, _⟩ => ⟨S2x9216x9216, .f32⟩
  | .hbm, ⟨65, _⟩ => ⟨S2x9216x9216, .f32⟩
  | .hbm, ⟨66, _⟩ => ⟨S2x9216x9216, .f32⟩
  | .hbm, ⟨67, _⟩ => ⟨S2x9216x9216, .f32⟩
  | .hbm, ⟨68, _⟩ => ⟨S_, .f32⟩
  | .hbm, ⟨69, _⟩ => ⟨S2x9216x9216, .f32⟩
  | .hbm, ⟨70, _⟩ => ⟨S2x9216x9216, .f32⟩
  | .hbm, ⟨71, _⟩ => ⟨S_, .f32⟩
  | .hbm, ⟨72, _⟩ => ⟨S2x9216x9216, .f32⟩
  | .hbm, ⟨73, _⟩ => ⟨S2x9216x9216, .f32⟩
  | .hbm, ⟨74, _⟩ => ⟨S2x9216x1, .f32⟩
  | .hbm, ⟨75, _⟩ => ⟨S2x1x9216, .f32⟩
  | .hbm, ⟨76, _⟩ => ⟨S2x9216x9216, .f32⟩
  | .hbm, ⟨77, _⟩ => ⟨S2x9216x9216, .f32⟩
  | .hbm, ⟨78, _⟩ => ⟨S2x9216x9216, .f32⟩
  | .hbm, ⟨79, _⟩ => ⟨S2x9216x9216, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | _, _ => ⟨S2x4x96x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_v23 : Ref sig .tc := ⟨.hbm, 33, rfl⟩
abbrev main_cst_7 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_8 : Ref sig .tc := ⟨.hbm, 41, rfl⟩
abbrev main_v30 : Ref sig .tc := ⟨.hbm, 42, rfl⟩
abbrev main_v31 : Ref sig .tc := ⟨.hbm, 43, rfl⟩
abbrev main_cst_9 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_10 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_11 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_12 : Ref sig .tc := ⟨.hbm, 68, rfl⟩
abbrev main_v53 : Ref sig .tc := ⟨.hbm, 69, rfl⟩
abbrev main_v54 : Ref sig .tc := ⟨.hbm, 70, rfl⟩
abbrev main_call1_cst : Ref sig .tc := ⟨.hbm, 71, rfl⟩
abbrev main_call1_v0 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_13 : Ref sig .tc := ⟨.hbm, 80, rfl⟩
abbrev main_v62 : Ref sig .tc := ⟨.hbm, 81, rfl⟩
abbrev main_cst_14 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_15 : Ref sig .tc := ⟨.hbm, 87, rfl⟩
abbrev main_v67 : Ref sig .tc := ⟨.hbm, 88, rfl⟩

abbrev nD : Nat := 1
abbrev τ : Topo := Topo.v7x

variable {F : FTy → Type} [FloatOps F]

class Facts₀ : Prop where
  slices_S2x2x96x96_S2x1x96x96_0_1_0_0 : S2x2x96x96.Slices ![0, 1, 0, 0] S2x1x96x96
  shapeCasts_S2x1x96x96_S2x96x96 : S2x1x96x96.ShapeCasts S2x96x96
  reducesTo_S2x96x96_S_d0_1_2 : S2x96x96.ReducesTo [0, 1, 2] S_
  h_S_ : 0 < S_.numel
  reducesTo_S2x4x96x96_S2x96x96_d1 : S2x4x96x96.ReducesTo [1] S2x96x96
  bcast_S2x96x96_S2x1x96x96_0_2_3 : S2x96x96.BroadcastsInDim S2x1x96x96 (![0, 2, 3] : Fin 3 → Fin S2x1x96x96.rank)
  slices_S2x2x96x96_S2x1x96x96_0_0_0_0 : S2x2x96x96.Slices ![0, 0, 0, 0] S2x1x96x96
  bcast_S_S2x1x96x96 : S_.BroadcastsInDim S2x1x96x96 (![] : Fin 0 → Fin S2x1x96x96.rank)
  reducesTo_S2x1x96x96_S_d0_1_2_3 : S2x1x96x96.ReducesTo [0, 1, 2, 3] S_
  bcast_S2x1x96x96_S2x4x96x96_0_1_2_3 : S2x1x96x96.BroadcastsInDim S2x4x96x96 (![0, 1, 2, 3] : Fin 4 → Fin S2x4x96x96.rank)
  reducesTo_S2x4x96x96_S_d0_1_2_3 : S2x4x96x96.ReducesTo [0, 1, 2, 3] S_
  shapeCasts_S2x96x96_S2x9216 : S2x96x96.ShapeCasts S2x9216
  bcast_S_S2x9216 : S_.BroadcastsInDim S2x9216 (![] : Fin 0 → Fin S2x9216.rank)
  bcast_S2x9216_S2x9216x1_0_1 : S2x9216.BroadcastsInDim S2x9216x1 (![0, 1] : Fin 2 → Fin S2x9216x1.rank)
  bcast_S2x9216_S2x1x9216_0_2 : S2x9216.BroadcastsInDim S2x1x9216 (![0, 2] : Fin 2 → Fin S2x1x9216.rank)
  bcast_S2x9216x1_S2x9216x9216_0_1_2 : S2x9216x1.BroadcastsInDim S2x9216x9216 (![0, 1, 2] : Fin 3 → Fin S2x9216x9216.rank)
  bcast_S2x1x9216_S2x9216x9216_0_1_2 : S2x1x9216.BroadcastsInDim S2x9216x9216 (![0, 1, 2] : Fin 3 → Fin S2x9216x9216.rank)
  bcast_S_S2x9216x9216 : S_.BroadcastsInDim S2x9216x9216 (![] : Fin 0 → Fin S2x9216x9216.rank)
  reducesTo_S2x9216x9216_S_d0_1_2 : S2x9216x9216.ReducesTo [0, 1, 2] S_
  reducesTo_S2x9216_S_d0_1 : S2x9216.ReducesTo [0, 1] S_

variable [Facts₀]

class Facts : Prop extends Facts₀ where

variable [Facts]
-- ==== Proof.K.Terms.lean ====
/-
  The values the two kernel regions compute, as pure terms of the arrays they read.
  Region 0 (one grid point, whole-array blocks): from the prediction x0 : f32[2,4,96,96] and the label x1 : f32[2,2,96,96],
  the row `scal x0 x1 : f32[1,4]` of four whole-array sums (density loss, pull variance, mask count, non-zero count)
  and the map `amap x0 x1 : f32[2,1,96,96]`, the masked mean tag a.
  Region 1 (a 12 x 12 grid over the 768-wide column tiles of a : f32[2,9216]): point n = 12 i + j adds to a one-by-one
  accumulator the sum over the tile pair (i, j) of the pairwise term; `pushAt a n` is the accumulator after point n,
  started from zero at point 0.
-/
import proofs.«160447_j33363305955887_1_alg».proof.Proof.Gen.Kernel.Skeleton
import Idealize.ShloMosaic.Lib.ValueIdx

noncomputable section

namespace Cert.Kernel.Hand

open Idealize.ShloMosaic Idealize.SL.Sem Cert.Kernel Cert.Kernel.Gen

variable {F : FTy → Type} [FloatOps F]

/-- Region 0's first output: the four sums, side by side. -/
def scal (x0 : Vec F S2x4x96x96 .f32) (x1 : Vec F S2x2x96x96 .f32) : Vec F S1x4 .f32 :=
  k0_pay2 (k0_pay3 x1) (k0_pay5 x0 x1) (k0_pay7 x0 x1) (k0_pay8 x0 x1)

/-- Region 0's second output: the masked mean tag, one value per batch and pixel. -/
def amap (x0 : Vec F S2x4x96x96 .f32) (x1 : Vec F S2x2x96x96 .f32) : Vec F S2x1x96x96 .f32 :=
  k0_pay1 (k0_pay3 x1) (k0_pay7 x0 x1)

/-- Column tile `i` (768 wide) of a two-row array of 9216 columns. -/
def tile (a : Vec F S2x9216 .f32) (i : Fin 12) : Vec F S2x768 .f32 :=
  fun y => a (ValueIdx.ix2 (n0 := 2) (n1 := 9216) ⟨(y 0).val, (y 0).isLt⟩
    ⟨i.val * 768 + (y 1).val, by have h1 : (y 1).val < 768 := (y 1).isLt; have := i.isLt; omega⟩)

/-- The accumulator after grid point `n` (row-major over the 12 x 12 grid): zero, then one tile pair's sum added per point. -/
def pushAt (a : Vec F S2x9216 .f32) : (n : ℕ) → n < 144 → Vec F S1x1 .f32
  | 0, _ => k1_pay1 (k1_pay3 (tile a ⟨0, by omega⟩) (tile a ⟨0, by omega⟩)) (k1_pay2 (F := F))
  | n + 1, h => k1_pay1 (k1_pay3 (tile a ⟨(n + 1) / 12, by omega⟩) (tile a ⟨(n + 1) % 12, by omega⟩)) (pushAt a n (by omega))

end Cert.Kernel.Hand

end
-- ==== Proof.K.Reg0.lean ====
/-
  The first region (one grid point; every window's block is its whole array). From the two argument arrays as the region
  finds them it leaves in its first output the row of four sums `scal` and in its second the map `amap`; the inputs stay.
  The proof data of its pipeline, the body's run on whole staging buffers, and what the two output arrays hold after the
  region's one write-back.
-/
import proofs.«160447_j33363305955887_1_alg».proof.Proof.K.Terms
import proofs.«160447_j33363305955887_1_alg».proof.Proof.Gen.Kernel.Launch
import proofs.«160447_j33363305955887_1_alg».proof.Proof.Gen.Kernel.Skeleton
import proofs.«160447_j33363305955887_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffer contents of every core when the region is entered
variable (V : (c : Dev nD) → (b : Ref sig .tc) → Buf (Elt F) ((c : Thread nD τ).loc b))

/-! ## The windows' blocks and the proof data -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- After the body: the inputs' buffers at their blocks, the first output's at the four sums of the two input blocks,
    the second's at the map a of the two input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => scal (iblk0 V c 0 t) (iblk0 V c 1 t)
    | ⟨3, _⟩ => amap (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = scal (iblk0 V c 0 t) (iblk0 V c 1 t) := by dsimp only [dat0]
theorem after0_3 (c : Dev nD) (t : Fin cfg0.N) : (dat0 V c).after 3 t = amap (iblk0 V c 0 t) (iblk0 V c 1 t) := by dsimp only [dat0]

/-! ## The inputs' staging buffers -/

/-- An input window is fetched at every point and never written by the body, so its current staging buffer holds
    its block at every point: for any proof data over the entry arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d

theorem before0_1 (c : Dev nD) (t : Fin cfg0.N) (d) : (dat0 V c).before 1 t d = iblk0 V c 1 t :=
  before0_1_of V (dat0 V c) (A_eq0 V c 1) (after0_1 V c) t d

/-! ## The body's accesses: every load and store is of a whole buffer -/

theorem zeros2 : (![0, 0] : Fin 2 → Nat) = fun _ => 0 := funext fun a => by fin_cases a <;> rfl
theorem zeros4 : (![0, 0, 0, 0] : Fin 4 → Nat) = fun _ => 0 := funext fun a => by fin_cases a <;> rfl

/-- The whole of each window's buffer, as the body names it. -/
abbrev whole0 : Rect S2x4x96x96 := Rect.unit (s := S2x4x96x96) ![0, 0, 0, 0] S2x4x96x96.size inb_S2x4x96x96_S2x4x96x96_0_0_0_0
abbrev whole1 : Rect S2x2x96x96 := Rect.unit (s := S2x2x96x96) ![0, 0, 0, 0] S2x2x96x96.size inb_S2x2x96x96_S2x2x96x96_0_0_0_0
abbrev whole2 : Rect S1x4 := Rect.unit (s := S1x4) ![0, 0] S1x4.size inb_S1x4_S1x4_0_0
abbrev whole3 : Rect S2x1x96x96 := Rect.unit (s := S2x1x96x96) ![0, 0, 0, 0] S2x1x96x96.size inb_S2x1x96x96_S2x1x96x96_0_0_0_0

/-- One store of the whole buffer covers it. -/
theorem cover0_2 (p : Vec F S1x4 .f32) (y : S1x4.Idx) :
    ∃ pc ∈ ([⟨whole2, p⟩] : List (View.Piece (Elt F) S1x4 .f32)), y ∈ pc.1.set :=
  ⟨_, List.mem_singleton_self _, View.mem_set_unit_zero zeros2 inb_S1x4_S1x4_0_0 y⟩

theorem cover0_3 (p : Vec F S2x1x96x96 .f32) (y : S2x1x96x96.Idx) :
    ∃ pc ∈ ([⟨whole3, p⟩] : List (View.Piece (Elt F) S2x1x96x96 .f32)), y ∈ pc.1.set :=
  ⟨_, List.mem_singleton_self _, View.mem_set_unit_zero zeros4 inb_S2x1x96x96_S2x1x96x96_0_0_0_0 y⟩

/-- A load of a whole buffer reads its contents; one store of a whole buffer leaves its payload. -/
theorem ld_whole0 (x : Vec F S2x4x96x96 .f32) : View.ld x whole0 = x := View.ld_unit_zero zeros4 _ x
theorem ld_whole1 (x : Vec F S2x2x96x96 .f32) : View.ld x whole1 = x := View.ld_unit_zero zeros4 _ x
theorem canon_whole2 (p : Vec F S1x4 .f32) : View.canon [(⟨whole2, p⟩ : View.Piece (Elt F) S1x4 .f32)] = p :=
  View.canon_unit_zero zeros2 _ p
theorem canon_whole3 (p : Vec F S2x1x96x96 .f32) : View.canon [(⟨whole3, p⟩ : View.Piece (Elt F) S2x1x96x96 .f32)] = p :=
  View.canon_unit_zero zeros4 _ p

/-! ## The body's triple -/

set_option maxHeartbeats 1000000 in
/-- The body on whole staging buffers, the inputs' at contents x0 and x1 and the outputs' at anything: it reads both
    inputs whole, reads each output whole (a dead value) and then stores it whole, the four sums of x0 and x1 into the first
    and the map a of x0 and x1 into the second; the inputs stay. -/
theorem sound_kernel0 (c : Dev nD) (E : Set ℕ) (i : grid0.Coords)
    (arg1 : Memref sig .tc .vmem S2x4x96x96 .f32) (harg1 : arg1.IsWhole) (arg2 : Memref sig .tc .vmem S2x2x96x96 .f32) (harg2 : arg2.IsWhole)
    (arg3 : Memref sig .tc .vmem S1x4 .f32) (harg3 : arg3.IsWhole) (arg4 : Memref sig .tc .vmem S2x1x96x96 .f32) (harg4 : arg4.IsWhole)
    (x0 : Vec F S2x4x96x96 .f32) (x1 : Vec F S2x2x96x96 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (scal x0 x1) ∗ owns (c : Thread nD τ) arg4 fullShare (amap x0 x1)) -∗ K ⟨⟩))
      ⊢ wp frame (wpE (defs₀ (F := F)) Variants.none c none) E (cc0__kernel_elementwise i arg1 harg1 arg2 harg2 arg3 harg3 arg4 harg4) K := by
  simp only [cc0__kernel_elementwise_eq_skeleton]; unfold cc0__kernel_elementwise_skel
  simp only [k0_part1_eq_skeleton]; unfold k0_part1_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  have e0 : View.readAt (Elt F) arg1.view whole0.toLoadRect f0 = View.read (Elt F) arg1.view f0 := ld_whole0 _
  have e1 : View.readAt (Elt F) arg2.view whole1.toLoadRect f1 = View.read (Elt F) arg2.view f1 := ld_whole1 _
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover0_2 _)).trans ?_
    refine (canon_whole2 _).trans ?_
    simp only [e0, e1]
    rfl
  iexists _; isplitr
  swap; · iexact H3
  ipureintro
  refine (View.read_writes_eq_canon _ _ _ (cover0_3 _)).trans ?_
  refine (canon_whole3 _).trans ?_
  simp only [e0, e1]
  rfl

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, the outputs' anything; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

/-! ## What the output arrays hold after the region -/

/-- Every window's block index is zero on every axis at every point: the block is the array. -/
theorem index0_0 : ∀ (t : Fin cfg0.N) (a : Fin 4), win0_0.index t a = 0 :=
  (by decide +kernel : ∀ (t : Fin grid0.N) (a : Fin 4), win0_0.index t a = 0)
theorem index0_1 : ∀ (t : Fin cfg0.N) (a : Fin 4), win0_1.index t a = 0 :=
  (by decide +kernel : ∀ (t : Fin grid0.N) (a : Fin 4), win0_1.index t a = 0)
theorem index0_2 : ∀ (t : Fin cfg0.N) (a : Fin 2), win0_2.index t a = 0 :=
  (by decide +kernel : ∀ (t : Fin grid0.N) (a : Fin 2), win0_2.index t a = 0)
theorem index0_3 : ∀ (t : Fin cfg0.N) (a : Fin 4), win0_3.index t a = 0 :=
  (by decide +kernel : ∀ (t : Fin grid0.N) (a : Fin 4), win0_3.index t a = 0)

/-- Each input's block is its whole array as the region finds it. -/
theorem iblk0_0 (c : Dev nD) (t : Fin cfg0.N) : iblk0 V c 0 t = (V c main_arg0 : Vec F S2x4x96x96 .f32) := by
  have hz : (fun a => win0_0.index t a * main_arg0.ty.shape.size a) = fun _ => 0 :=
    funext fun a => by rw [index0_0 t a, Nat.zero_mul]
  exact Memref.read_access_unit_zero (Elt F) main_arg0 hz (fun a => by rw [congrFun hz a]; simp) (V c main_arg0)

theorem iblk0_1 (c : Dev nD) (t : Fin cfg0.N) : iblk0 V c 1 t = (V c main_arg1 : Vec F S2x2x96x96 .f32) := by
  have hz : (fun a => win0_1.index t a * main_arg1.ty.shape.size a) = fun _ => 0 :=
    funext fun a => by rw [index0_1 t a, Nat.zero_mul]
  exact Memref.read_access_unit_zero (Elt F) main_arg1 hz (fun a => by rw [congrFun hz a]; simp) (V c main_arg1)

/-- What a point writes back into the first output is the block, the whole, of the four sums of the argument arrays. -/
theorem flushed0_2 (c : Dev nD) (t : Fin cfg0.N) :
    (dat0 V c).flushed 2 t = ((cfg0.win 2).blk t).view.read (Elt F) (scal (V c main_arg0) (V c main_arg1)) := by
  show (cfg0.win 2).cut (grid0.coords t) ((dat0 V c).after 2 t) = _
  rw [after0_2, iblk0_0, iblk0_1]
  have hz : (fun a => win0_2.index t a * main_v0_0.ty.shape.size a) = fun _ => 0 :=
    funext fun a => by rw [index0_2 t a, Nat.zero_mul]
  exact (Memref.read_access_unit_zero (Elt F) main_v0_0 hz (fun a => by rw [congrFun hz a]; simp)
    (scal (V c main_arg0) (V c main_arg1))).symm

/-- and into the second, of the map a of the argument arrays. -/
theorem flushed0_3 (c : Dev nD) (t : Fin cfg0.N) :
    (dat0 V c).flushed 3 t = ((cfg0.win 3).blk t).view.read (Elt F) (amap (V c main_arg0) (V c main_arg1)) := by
  show (cfg0.win 3).cut (grid0.coords t) ((dat0 V c).after 3 t) = _
  rw [after0_3, iblk0_0, iblk0_1]
  have hz : (fun a => win0_3.index t a * main_v0_1.ty.shape.size a) = fun _ => 0 :=
    funext fun a => by rw [index0_3 t a, Nat.zero_mul]
  exact (Memref.read_access_unit_zero (Elt F) main_v0_1 hz (fun a => by rw [congrFun hz a]; simp)
    (amap (V c main_arg0) (V c main_arg1))).symm

/-- Every index of an output array is in the block of every point. -/
theorem mem_blk0_2 (t : Fin cfg0.N) (i : S1x4.Idx) : i ∈ ((cfg0.win 2).blk t).view.set := by
  show i ∈ ((View.whole main_v0_0).slice (win0_2.rect t)).set
  rw [View.set_slice_whole, Rect.mem_set_unit]
  intro a
  show win0_2.index t a * S1x4.size a ≤ (i a).val ∧ (i a).val < win0_2.index t a * S1x4.size a + S1x4.size a
  rw [index0_2 t a, Nat.zero_mul, Nat.zero_add]
  exact ⟨Nat.zero_le _, (i a).isLt⟩

theorem mem_blk0_3 (t : Fin cfg0.N) (i : S2x1x96x96.Idx) : i ∈ ((cfg0.win 3).blk t).view.set := by
  show i ∈ ((View.whole main_v0_1).slice (win0_3.rect t)).set
  rw [View.set_slice_whole, Rect.mem_set_unit]
  intro a
  show win0_3.index t a * S2x1x96x96.size a ≤ (i a).val ∧ (i a).val < win0_3.index t a * S2x1x96x96.size a + S2x1x96x96.size a
  rw [index0_3 t a, Nat.zero_mul, Nat.zero_add]
  exact ⟨Nat.zero_le _, (i a).isLt⟩

/-- The grid's one point writes both outputs back whole, so after the region the first output array holds the four
    sums of the argument arrays -/
theorem final0_2 (c : Dev nD) : (dat0 V c).arrAt 2 cfg0.N = scal (V c main_arg0) (V c main_arg1) :=
  (dat0 V c).arrAt_eq_of_cover 2 (scal (V c main_arg0) (V c main_arg1)) (fun t _ => flushed0_2 V c t)
    fun i => ⟨t0_0, flush0_2 t0_0, mem_blk0_2 t0_0 i⟩

/-- and the second the map a of the argument arrays. -/
theorem final0_3 (c : Dev nD) : (dat0 V c).arrAt 3 cfg0.N = amap (V c main_arg0) (V c main_arg1) :=
  (dat0 V c).arrAt_eq_of_cover 3 (amap (V c main_arg0) (V c main_arg1)) (fun t _ => flushed0_3 V c t)
    fun i => ⟨t0_0, flush0_3 t0_0, mem_blk0_3 t0_0 i⟩

end Cert.Kernel.Hand

end
-- ==== Proof.K.Reg1.lean ====
/-
  The second region (a 12 x 12 grid; two input windows on the one array a, column tile i = point / 12 and column tile
  j = point % 12; one one-by-one output block with a constant index map, so it stays in its staging buffer from the first
  point to the last and is written back once, at the last). The body zeroes the block at point 0 and adds the tile pair's
  sum at every point: after point n the block holds `pushAt a n`.
-/
import proofs.«160447_j33363305955887_1_alg».proof.Proof.K.Terms
import proofs.«160447_j33363305955887_1_alg».proof.Proof.Gen.Kernel.Launch
import proofs.«160447_j33363305955887_1_alg».proof.Proof.Gen.Kernel.Skeleton
import proofs.«160447_j33363305955887_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffer contents of every core when the region is entered
variable (V : (c : Dev nD) → (b : Ref sig .tc) → Buf (Elt F) ((c : Thread nD τ).loc b))

/-! ## The windows' blocks and the proof data -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- After the body at point `t`: the inputs' buffers at their blocks, the accumulator at the sum over the points up to `t`.
    The one array a is held half by each input window. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => pushAt (V c main_v1) t.val (lt_of_lt_of_eq t.isLt N_1)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

/-! ## The body's branch condition -/

/-- The body resets the accumulator exactly when both grid coordinates are zero. -/
abbrev cond1 (i : grid1.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1

/-- That is at the first point only. -/
theorem hcond1 : ∀ t : Fin cfg1.N, cond1 (grid1.coords t) ↔ t.val = 0 :=
  (by decide +kernel : ∀ t : Fin grid1.N, cond1 (grid1.coords t) ↔ t.val = 0)

/-- The zero offsets of a whole-block rectangle of rank two. -/
theorem hz1x1 : (![0, 0] : Fin 2 → Nat) = fun _ => 0 := by
  funext a; match a with | ⟨0, _⟩ => rfl | ⟨1, _⟩ => rfl

/-! ## The body on any staging buffers, in its two cases -/

set_option maxHeartbeats 1000000 in
/-- The reset case (both coordinates zero). On whole staging buffers, the inputs' at `x0` and `x1` and the accumulator's
    at anything, the body stores the zero block, reads it back, and stores the tile pair's sum added to it: the
    accumulator's buffer ends at `k1_pay1 (k1_pay3 x0 x1) k1_pay2`, the inputs' as they were. The last store covers
    the block, so its payload is what the buffer reads; the read-back after the zeroing store reads the zero block. -/
theorem run1_first (c : Dev nD) (i : grid1.Coords) (arg2 : Memref sig .tc .vmem S2x768 .f32) (harg2 : arg2.IsWhole)
    (arg3 : Memref sig .tc .vmem S2x768 .f32) (harg3 : arg3.IsWhole) (arg4 : Memref sig .tc .vmem S1x1 .f32) (harg4 : arg4.IsWhole)
    (hc : cond1 i) (x0 x1 : Vec F S2x768 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (k1_pay1 (k1_pay3 x0 x1) (k1_pay2 (F := F)))) -∗ K ⟨⟩))
      ⊢ wp frame (wpE (defs₀ (F := F)) Variants.none c none) E (cc1__kernel_push i arg2 harg2 arg3 harg3 arg4 harg4) K := by
  simp only [cc1__kernel_push_eq_skeleton]; unfold cc1__kernel_push_skel
  simp only [k1_part1_eq_skeleton]; unfold k1_part1_skel
  unfold owns
  iintro ⟨⟨%f0, %hf0, H0⟩, ⟨%f1, %hf1, H1⟩, ⟨%d2, %f2, -, H2⟩, Hk⟩
  obtain rfl := harg2.eq_unread hf0; obtain rfl := harg3.eq_unread hf1
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H2
  ipureintro
  rw [View.read_writes_eq_canon _ _ _ (fun y => ⟨_, List.mem_cons_self, View.mem_set_unit_zero hz1x1 inb_S1x1_S1x1_0_0 y⟩)]
  dsimp only
  sl_unfold_words
  rw [View.canon_cons_unit_zero (S := S1x1) hz1x1, View.readCov_unit_zero (S := S1x1) _ hz1x1]
  simp only [View.readAt_eq_ld, harg2.read_unread, harg3.read_unread, View.ld_unit_zero (S := S2x768) hz1x1]

set_option maxHeartbeats 1000000 in
/-- The adding case (some coordinate not zero). On whole staging buffers, the inputs' at `x0` and `x1` and the
    accumulator's at `xo`, the body reads the accumulator and stores the tile pair's sum added to it: the
    accumulator's buffer ends at `k1_pay1 (k1_pay3 x0 x1) xo`, the inputs' as they were. -/
theorem run1_later (c : Dev nD) (i : grid1.Coords) (arg2 : Memref sig .tc .vmem S2x768 .f32) (harg2 : arg2.IsWhole)
    (arg3 : Memref sig .tc .vmem S2x768 .f32) (harg3 : arg3.IsWhole) (arg4 : Memref sig .tc .vmem S1x1 .f32) (harg4 : arg4.IsWhole)
    (hc : ¬cond1 i) (x0 x1 : Vec F S2x768 .f32) (xo : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare xo
        ∗ (iprop(owns (c : Thread nD τ) arg2 fullShare x0 ∗ owns (c : Thread nD τ) arg3 fullShare x1
            ∗ owns (c : Thread nD τ) arg4 fullShare (k1_pay1 (k1_pay3 x0 x1) xo)) -∗ K ⟨⟩))
      ⊢ wp frame (wpE (defs₀ (F := F)) Variants.none c none) E (cc1__kernel_push i arg2 harg2 arg3 harg3 arg4 harg4) K := by
  simp only [cc1__kernel_push_eq_skeleton]; unfold cc1__kernel_push_skel
  simp only [k1_part1_eq_skeleton]; unfold k1_part1_skel
  unfold owns
  iintro ⟨⟨%f0, %hf0, H0⟩, ⟨%f1, %hf1, H1⟩, ⟨%f2, %hf2, H2⟩, Hk⟩
  obtain rfl := harg2.eq_unread hf0; obtain rfl := harg3.eq_unread hf1; obtain rfl := harg4.eq_unread hf2
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H2
  ipureintro
  rw [View.read_writes_eq_canon _ _ _ (fun y => ⟨_, List.mem_cons_self, View.mem_set_unit_zero hz1x1 inb_S1x1_S1x1_0_0 y⟩)]
  dsimp only
  sl_unfold_words
  rw [View.canon_unit_zero (S := S1x1) hz1x1]
  simp only [View.readAt_eq_ld, harg2.read_unread, harg3.read_unread, harg4.read_unread,
    View.ld_unit_zero (S := S2x768) hz1x1, View.ld_unit_zero (S := S1x1) hz1x1]

/-! ## The input blocks are column tiles of the one array -/

/-- The two input windows' block indices over the grid: both at row block 0; the first at column tile point / 12,
    the second at column tile point % 12. -/
theorem idx_facts1 : ∀ t : Fin cfg1.N, win1_0.index t (0 : Fin 2) = 0 ∧ win1_0.index t (1 : Fin 2) = t.val / 12
    ∧ win1_1.index t (0 : Fin 2) = 0 ∧ win1_1.index t (1 : Fin 2) = t.val % 12 :=
  (by decide +kernel : ∀ t : Fin grid1.N, _)

/-- The first input block at point `t` is column tile `t / 12`. -/
theorem iblk1_0_eq (c : Dev nD) (t : Fin cfg1.N) :
    iblk1 V c 0 t = tile (V c main_v1) ⟨t.val / 12, by have := lt_of_lt_of_eq t.isLt N_1; omega⟩ := by
  obtain ⟨e0, e1, -, -⟩ := idx_facts1 t
  funext y
  show V c main_v1 (((cfg1.win 0).blk t).view.emb y) = V c main_v1 _
  refine congrArg _ ?_
  funext a; apply Fin.ext
  match a with
  | ⟨0, _⟩ => show win1_0.index t (0 : Fin 2) * 2 + 1 * (y 0).val = (y 0).val; omega
  | ⟨1, _⟩ => show win1_0.index t (1 : Fin 2) * 768 + 1 * (y 1).val = t.val / 12 * 768 + (y 1).val; omega

/-- The second input block at point `t` is column tile `t % 12`. -/
theorem iblk1_1_eq (c : Dev nD) (t : Fin cfg1.N) :
    iblk1 V c 1 t = tile (V c main_v1) ⟨t.val % 12, Nat.mod_lt _ (by omega)⟩ := by
  obtain ⟨-, -, e0, e1⟩ := idx_facts1 t
  funext y
  show V c main_v1 (((cfg1.win 1).blk t).view.emb y) = V c main_v1 _
  refine congrArg _ ?_
  funext a; apply Fin.ext
  match a with
  | ⟨0, _⟩ => show win1_1.index t (0 : Fin 2) * 2 + 1 * (y 0).val = (y 0).val; omega
  | ⟨1, _⟩ => show win1_1.index t (1 : Fin 2) * 768 + 1 * (y 1).val = t.val % 12 * 768 + (y 1).val; omega

/-! ## What the staging buffers hold when the body runs -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = pushAt (V c main_v1) t.val (lt_of_lt_of_eq t.isLt N_1) := by dsimp only [dat1]

/-- The first input's buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- So does the second input's. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- After the first point the accumulator's buffer holds what the point before left: it is written back at the last
    point only. -/
theorem before1_2 (c : Dev nD) (t : Fin cfg1.N) (h0 : t.val ≠ 0) (d) :
    (dat1 V c).before 2 t d = pushAt (V c main_v1) (t.val - 1) (by have := lt_of_lt_of_eq t.isLt N_1; omega) := by
  have hN : t.val < 144 := lt_of_lt_of_eq t.isLt N_1
  rw [Dat.before_out_kept _ 2 rfl t h0 (Bool.eq_false_iff.mpr fun h => by have := (flush1_2 _).mp h; dsimp only at this; omega)
    (fun _ => rfl) (fun _ _ => rfl)]
  dsimp only [dat1]

/-! ## The accumulator's two equations, at a point of the grid -/

/-- The accumulator after point 0, its two tiles named by any indices that are zero. -/
theorem pushAt_zero (a : Vec F S2x9216 .f32) (i j : Fin 12) (hi : i.val = 0) (hj : j.val = 0) (h : 0 < 144) :
    pushAt a 0 h = k1_pay1 (k1_pay3 (tile a i) (tile a j)) (k1_pay2 (F := F)) := by
  obtain ⟨i, _⟩ := i; obtain ⟨j, _⟩ := j
  dsimp only at hi hj
  subst hi; subst hj
  rfl

/-- At the first point the accumulator is the first tile pair's sum added to zero. -/
theorem pushAt_first (c : Dev nD) (t : Fin cfg1.N) (h0 : t.val = 0) :
    pushAt (V c main_v1) t.val (lt_of_lt_of_eq t.isLt N_1)
      = k1_pay1 (k1_pay3 (iblk1 V c 0 t) (iblk1 V c 1 t)) (k1_pay2 (F := F)) := by
  rw [iblk1_0_eq, iblk1_1_eq]
  obtain ⟨n, hn⟩ := t
  cases n with
  | zero => exact pushAt_zero _ _ _ (Nat.zero_div 12) (Nat.zero_mod 12) _
  | succ n => exact absurd h0 (Nat.succ_ne_zero n)

/-- At a later point it is the point's tile pair's sum added to what the point before left. -/
theorem pushAt_later (c : Dev nD) (t : Fin cfg1.N) (h0 : t.val ≠ 0) :
    pushAt (V c main_v1) t.val (lt_of_lt_of_eq t.isLt N_1)
      = k1_pay1 (k1_pay3 (iblk1 V c 0 t) (iblk1 V c 1 t))
          (pushAt (V c main_v1) (t.val - 1) (by have := lt_of_lt_of_eq t.isLt N_1; omega)) := by
  rw [iblk1_0_eq, iblk1_1_eq]
  obtain ⟨n, hn⟩ := t
  cases n with
  | zero => exact absurd rfl h0
  | succ n => rfl

/-! ## The body at a point of the grid -/

/-- Each window's current staging buffer at point `t`, as the pipeline hands it to the body. -/
abbrev ms1_0 (t : Fin cfg1.N) : Memref sig .tc .vmem S2x768 .f32 := win1_0.stage (cfg1.slots t 0)
abbrev ms1_1 (t : Fin cfg1.N) : Memref sig .tc .vmem S2x768 .f32 := win1_1.stage (cfg1.slots t 1)
abbrev ms1_2 (t : Fin cfg1.N) : Memref sig .tc .vmem S1x1 .f32 := win1_2.stage (cfg1.slots t 2)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 800000 in
/-- The body at any point: the inputs' buffers hold their blocks; at the first point the accumulator's buffer holds
    anything and the body resets it, at a later point it holds what the point before left and the body adds to that;
    the invariant and the core's debts pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  by_cases h0 : t.val = 0
  · rw [pushAt_first V c t h0]
    iintro ⟨HΦ, Ho, ⟨%d0, H0⟩, ⟨%d1, H1⟩, ⟨%d2, H2⟩⟩
    iapply (run1_first c (grid1.coords t) _ _ _ _ _ _ ((hcond1 t).mpr h0) (iblk1 V c 0 t) (iblk1 V c 1 t) Set.univ _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · simp only [before1_2 V c t h0]
    rw [pushAt_later V c t h0]
    iintro ⟨HΦ, Ho, ⟨%d0, H0⟩, ⟨%d1, H1⟩, ⟨%d2, H2⟩⟩
    iapply (run1_later c (grid1.coords t) _ _ _ _ _ _ (fun h => h0 ((hcond1 t).mp h)) (iblk1 V c 0 t) (iblk1 V c 1 t) _ Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-! ## The body obligation -/

theorem body_obligation1 (c : Dev nD) : BodyObligation (dat1 (F := F) V c) (defs₀ (F := F)) Variants.none () Set.univ := fun t => by
  rw [bigSep_W1, bigSep_W1]
  exact sound_body1 V c t

/-! ## What the output array holds after the region -/

/-- The accumulator's block index is zero on both axes at every point: the block is the one-by-one array. -/
theorem index1_2 : ∀ (t : Fin cfg1.N) (a : Fin 2), win1_2.index t a = 0 :=
  (by decide +kernel : ∀ (t : Fin grid1.N) (a : Fin 2), win1_2.index t a = 0)

/-- The one point that writes back, the last, writes the block, the whole array, of the accumulator after point 143. -/
theorem flushed1_2 (c : Dev nD) (t : Fin cfg1.N) (hf : (cfg1.win 2).flush t = true) :
    (dat1 V c).flushed 2 t = ((cfg1.win 2).blk t).view.read (Elt F) (pushAt (V c main_v1) 143 (by omega)) := by
  show (cfg1.win 2).cut (grid1.coords t) ((dat1 V c).after 2 t) = _
  rw [after1_2]
  have hN : t.val < 144 := lt_of_lt_of_eq t.isLt N_1
  have h143 : t.val = 143 := by have := (flush1_2 t).mp hf; omega
  have hz : (fun a => win1_2.index t a * main_v2.ty.shape.size a) = fun _ => 0 :=
    funext fun a => by rw [index1_2 t a, Nat.zero_mul]
  refine Eq.trans ?_ (Memref.read_access_unit_zero (Elt F) main_v2 hz (fun a => by rw [congrFun hz a]; simp)
    (pushAt (V c main_v1) 143 (by omega))).symm
  obtain ⟨n, hn⟩ := t
  dsimp only at h143
  subst h143
  rfl

/-- Every index of the output array is in the block of every point. -/
theorem mem_blk1_2 (t : Fin cfg1.N) (i : S1x1.Idx) : i ∈ ((cfg1.win 2).blk t).view.set := by
  show i ∈ ((View.whole main_v2).slice (win1_2.rect t)).set
  rw [View.set_slice_whole, Rect.mem_set_unit]
  intro a
  show win1_2.index t a * S1x1.size a ≤ (i a).val ∧ (i a).val < win1_2.index t a * S1x1.size a + S1x1.size a
  rw [index1_2 t a, Nat.zero_mul, Nat.zero_add]
  exact ⟨Nat.zero_le _, (i a).isLt⟩

/-- The last point, the only one that writes back, writes the whole array: after the region the output array holds the
    accumulator after point 143. -/
theorem final1_2 (c : Dev nD) : (dat1 V c).arrAt 2 cfg1.N = pushAt (V c main_v1) 143 (by omega) :=
  (dat1 V c).arrAt_eq_of_cover 2 (pushAt (V c main_v1) 143 (by omega)) (fun t hf => flushed1_2 V c t hf)
    fun i => ⟨⟨143, by rw [show cfg1.N = 144 from N_1]; omega⟩, (flush1_2 _).mpr rfl, mem_blk1_2 _ i⟩

end Cert.Kernel.Hand

end
-- ==== Proof.K.Shares1.lean ====
/-
  The second region's three windows stand on two buffers: both input windows read the one array a, the output window owns
  the one-by-one result. At the region's entry the core's whole holding of a is cut into two half shares, one per input
  window (a read needs only a share); at its exit the two halves, still at the same contents since no window writes a,
  are joined back into the whole.
-/
import proofs.«160447_j33363305955887_1_alg».proof.Proof.K.Terms
import proofs.«160447_j33363305955887_1_alg».proof.Proof.Gen.Kernel.Launch
import proofs.«160447_j33363305955887_1_alg».proof.Proof.Gen.Kernel.Skeleton
import proofs.«160447_j33363305955887_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffer contents of every core when the region is entered
variable (V : (c : Dev nD) → (b : Ref sig .tc) → Buf (Elt F) ((c : Thread nD τ).loc b))

/-- The buffers behind the region's three windows: the array a, under both input windows, and the result. -/
theorem arrRefs1 : Finset.univ.image (Pipeline.arrRef spec1) = {main_v1, main_v2} := by decide

/-- The distinct buffers behind the windows, one by one: a whole and the result whole. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v1) ↦{fullShare} W main_v1) ∗ (((c : Thread nD τ).loc main_v2) ↦{fullShare} W main_v2)) := by
  unfold Pipeline.arrBufs
  rw [arrRefs1, bigSep_insert (by decide), bigSep_singleton]
  rfl

/-- The region's arrays window by window: a at the left half under the first input window and at the right half under
    the second, the result whole under the output window. -/
theorem arrays1_eq (c : Dev nD) (dat : Dat τ (Elt F) Unit ℕ (UR sig nD τ) ℕ cfg1 c)
    (hq0 : dat.q 0 = fullShare.left) (hq1 : dat.q 1 = fullShare.right)
    (G : (w : Fin cfg1.W) → Buf (Elt F) ((cfg1.win w).arr.view.loc (c : Thread nD τ))) :
    (dat.arrays G : sProp 𝕄)
      = iprop((((c : Thread nD τ).loc main_v1) ↦{fullShare.left} G 0) ∗ (((c : Thread nD τ).loc main_v1) ↦{fullShare.right} G 1)
          ∗ (((c : Thread nD τ).loc main_v2) ↦{fullShare} G 2)) := by
  unfold Dat.arrays
  -- the two input windows stand on one array, so one rewrite of its element set serves both
  rw [bigSep_W1, (arr_whole1 0).set_eq_univ, (arr_whole1 2).set_eq_univ,
    show dat.share 0 = fullShare.left from hq0, show dat.share 1 = fullShare.right from hq1, show dat.share 2 = fullShare from rfl]

/-- ENTRY: the core's unscoped buffers at contents `W` are the region's arrays — a at a half share under each input
    window, the result whole — beside the unscoped buffers that are no array of the region. -/
theorem arrays1_of_unscopedBufs (c : Dev nD) (dat : Dat τ (Elt F) Unit ℕ (UR sig nD τ) ℕ cfg1 c)
    (hq0 : dat.q 0 = fullShare.left) (hq1 : dat.q 1 = fullShare.right)
    (W : (b : Ref sig .tc) → Buf (Elt F) ((c : Thread nD τ).loc b)) (hA : ∀ w, dat.A w = W (Pipeline.arrRef spec1 w)) :
    (unscopedBufs c W : sProp 𝕄)
      ⊢ iprop(dat.arrays (dat.arrAt · 0) ∗ Pipeline.unscopedRest (Ix := Unit) (Name := ℕ) (U := UR sig nD τ) (Lvl := ℕ) spec1 c W) := by
  -- the unscoped buffers are the two buffers behind the windows and the rest; a's whole holding is cut in two halves
  rw [show (unscopedBufs c W : sProp 𝕄)
        = iprop((Pipeline.arrBufs (Ix := Unit) (Name := ℕ) (U := UR sig nD τ) (Lvl := ℕ) spec1 c W : sProp 𝕄)
            ∗ Pipeline.unscopedRest (Ix := Unit) (Name := ℕ) (U := UR sig nD τ) (Lvl := ℕ) spec1 c W) from
      Pipeline.unscopedBufs_split₀ cfgs 1 winFacts₀1.arr_unscoped c W,
    arrBufs1_eq, arrays1_eq c dat hq0 hq1,
    show dat.arrAt 0 0 = W main_v1 from hA 0, show dat.arrAt 1 0 = W main_v1 from hA 1, show dat.arrAt 2 0 = W main_v2 from hA 2]
  iintro ⟨⟨Ha, Hr⟩, Hrest⟩
  ihave Ha := (pointsTo_share (PosShare.mem_left_op_right fullShare)).1 $$ Ha
  icases Ha with ⟨Ha₁, Ha₂⟩
  isplitr [Hrest]
  · isplitl [Ha₁]; · iexact Ha₁
    isplitl [Ha₂]; · iexact Ha₂
    iexact Hr
  · iexact Hrest

/-- EXIT: the region's arrays at contents `G` and the unscoped rest at `W` are the core's unscoped buffers at any contents
    `W'` that has the arrays at `G` and agrees with `W` off them. -/
theorem unscopedBufs_of_arrays1 (c : Dev nD) (dat : Dat τ (Elt F) Unit ℕ (UR sig nD τ) ℕ cfg1 c)
    (hq0 : dat.q 0 = fullShare.left) (hq1 : dat.q 1 = fullShare.right)
    (W W' : (b : Ref sig .tc) → Buf (Elt F) ((c : Thread nD τ).loc b))
    (G : (w : Fin cfg1.W) → Buf (Elt F) ((cfg1.win w).arr.view.loc (c : Thread nD τ)))
    (hG : ∀ w, G w = W' (Pipeline.arrRef spec1 w))
    (hrest : ∀ b, b ∉ Finset.univ.image (Pipeline.arrRef spec1) → W' b = W b) :
    iprop(dat.arrays G ∗ Pipeline.unscopedRest (Ix := Unit) (Name := ℕ) (U := UR sig nD τ) (Lvl := ℕ) spec1 c W)
      ⊢ (unscopedBufs c W' : sProp 𝕄) := by
  -- both halves of a hold the same contents, so they join into the whole; off the arrays the two contents agree
  rw [show (unscopedBufs c W' : sProp 𝕄)
        = iprop((Pipeline.arrBufs (Ix := Unit) (Name := ℕ) (U := UR sig nD τ) (Lvl := ℕ) spec1 c W' : sProp 𝕄)
            ∗ Pipeline.unscopedRest (Ix := Unit) (Name := ℕ) (U := UR sig nD τ) (Lvl := ℕ) spec1 c W') from
      Pipeline.unscopedBufs_split₀ cfgs 1 winFacts₀1.arr_unscoped c W',
    arrBufs1_eq, arrays1_eq c dat hq0 hq1,
    show G 0 = W' main_v1 from hG 0, show G 1 = W' main_v1 from hG 1, show G 2 = W' main_v2 from hG 2,
    show (Pipeline.unscopedRest (Ix := Unit) (Name := ℕ) (U := UR sig nD τ) (Lvl := ℕ) spec1 c W' : sProp 𝕄)
        = Pipeline.unscopedRest (Ix := Unit) (Name := ℕ) (U := UR sig nD τ) (Lvl := ℕ) spec1 c W from by
      unfold Pipeline.unscopedRest
      exact bigSep_congr fun b hb => by rw [hrest b (Finset.mem_sdiff.mp hb).2]]
  iintro ⟨⟨Ha₁, Ha₂, Hr⟩, Hrest⟩
  ihave Ha := (pointsTo_share (PosShare.mem_left_op_right fullShare)).2 $$ [Ha₁ Ha₂]
  · isplitl [Ha₁] <;> iassumption
  isplitr [Hrest]
  · isplitl [Ha]; · iexact Ha
    iexact Hr
  · iexact Hrest

end Cert.Kernel.Hand

end
-- ==== Proof.K.Segs.lean ====
/-
  The whole program's run, from the two regions' proof data. What each region leaves in the buffers it writes is named:
  after the first region its two outputs hold the row of four sums and the map a of the launch arrays; the host reshape
  lays a out as two rows of 9216; after the second region its output holds the accumulator after the last grid point.
  Each region's record enters from "every unscoped buffer at the valuation before it" and leaves at the valuation after
  it; the first region's arrays are distinct buffers, the second's two input windows share a (held half and half).
-/
import proofs.«160447_j33363305955887_1_alg».proof.Proof.K.Reg0
import proofs.«160447_j33363305955887_1_alg».proof.Proof.K.Reg1
import proofs.«160447_j33363305955887_1_alg».proof.Proof.K.Shares1
import proofs.«160447_j33363305955887_1_alg».proof.Proof.K.RunCond

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions leave -/

/-- The first region is entered from the launch memory. -/
abbrev Ve0 : (c : Dev nD) → (b : Ref sig .tc) → Buf (Elt F) ((c : Thread nD τ).loc b) := fun c b => Gen.V0 m c b

/-- Every unscoped buffer after the first region: its two outputs at what its one write-back leaves. -/
def U1 (c : Dev nD) : Valuation τ sig (Elt F) :=
  Function.update (Function.update (Gen.V0 m c) main_v0_0 ((dat0 (Ve0 m) c).arrAt 2 cfg0.N)) main_v0_1 ((dat0 (Ve0 m) c).arrAt 3 cfg0.N)

/-- The regions' results up to the first region. -/
def outsA : Gen.Outs (F := F) := fun _ r c => U1 m c r

/-- The second region is entered after the reshape of a. -/
abbrev Ve2 : (c : Dev nD) → (b : Ref sig .tc) → Buf (Elt F) ((c : Thread nD τ).loc b) := fun c b => Gen.V2 m (outsA m) c b

/-- Every unscoped buffer after the second region: its output at the accumulator after the last point. -/
def U3 (c : Dev nD) : Valuation τ sig (Elt F) :=
  Function.update (Gen.V2 m (outsA m) c) main_v2 ((dat1 (Ve2 m) c).arrAt 2 cfg1.N)

/-- What the regions leave in the buffers they write, by the item they follow. -/
def outsOf : Gen.Outs (F := F) := fun J r c => match J with
  | 1 => U1 m c r
  | _ => U3 m c r

/-! ## The valuations between the items, with the regions' results named -/

theorem ne_v00_v01 : (Proc.devRef .tc main_v0_0 : DevRef τ sig) ≠ Proc.devRef .tc main_v0_1 := StableHlo.devRef_ne_of_ne (by decide)

theorem U1_v00 (c : Dev nD) : U1 m c main_v0_0 = (dat0 (Ve0 m) c).arrAt 2 cfg0.N := by
  unfold U1; rw [Function.update_of_ne ne_v00_v01, Function.update_self]

theorem U1_v01 (c : Dev nD) : U1 m c main_v0_1 = (dat0 (Ve0 m) c).arrAt 3 cfg0.N := by
  unfold U1; rw [Function.update_self]

/-- After the first region the valuation is the launch memory with the two outputs replaced. -/
theorem V1_outsA (c : Dev nD) : Gen.V1 m (outsA m) c = U1 m c := by
  show Function.update (Function.update (Gen.V0 m c) main_v0_0 (U1 m c main_v0_0)) main_v0_1 (U1 m c main_v0_1) = U1 m c
  rw [U1_v00, U1_v01]; rfl

theorem V1_outsOf (c : Dev nD) : Gen.V1 m (outsOf m) c = U1 m c := V1_outsA m c

theorem V2_outsOf (c : Dev nD) : Gen.V2 m (outsOf m) c = Gen.V2 m (outsA m) c := by
  show StableHlo.after hostOps1 (Gen.V1 m (outsOf m) c) = StableHlo.after hostOps1 (Gen.V1 m (outsA m) c)
  rw [V1_outsOf, V1_outsA]

theorem U3_v2 (c : Dev nD) : U3 m c main_v2 = (dat1 (Ve2 m) c).arrAt 2 cfg1.N := by
  unfold U3; rw [Function.update_self]

/-- After the second region the valuation is the one before it with the accumulator's array replaced. -/
theorem V3_outsOf (c : Dev nD) : Gen.V3 m (outsOf m) c = U3 m c := by
  show Function.update (Gen.V2 m (outsOf m) c) main_v2 (U3 m c main_v2) = U3 m c
  rw [V2_outsOf, U3_v2]; rfl

/-! ## The proof data family and what rides beside the buffers -/

/-- Every pipeline's proof data, each at its region's entry contents. -/
def pdats : (p : Fin 2) → (c : Dev nD) → Dat τ (Elt F) Unit ℕ (UR sig nD τ) ℕ (cfgs p) c
  | ⟨0, _⟩ => fun c => dat0 (Ve0 m) c
  | ⟨1, _⟩ => fun c => dat1 (Ve2 m) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every item: the core's generator register at some state and its debts, none. -/
abbrev R (c : Dev nD) : sProp 𝕄 := iprop((∃ r, prngReg c r) ∗ ∃ W, owes (c : Thread nD τ) (0 : CellTallies nD τ sig Unit) W)

/-- The thread state before an item whose entry valuation is `W`. -/
abbrev T (W : Dev nD → Valuation τ sig (Elt F)) (c : Dev nD) : sProp 𝕄 :=
  iprop(StableHlo.held (c : Thread nD τ) (Pipeline.ucRefs τ sig) (W c) ∗ R c)

end Cert.Kernel.Hand

end
-- ==== Proof.K.SegR0.lean ====
/-
  The first region as an item of the program's run: entered from every unscoped buffer at the launch memory, left with
  its two outputs replaced by what its write-back leaves. Its four arrays are distinct buffers, each held whole.
-/
import proofs.«160447_j33363305955887_1_alg».proof.Proof.K.Segs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- After the first region each of its arrays holds what the valuation after it says. -/
theorem U1_arg0 (c : Dev nD) : U1 m c main_arg0 = Gen.V0 m c main_arg0 := by
  unfold U1
  rw [Function.update_of_ne (StableHlo.devRef_ne_of_ne (by decide)), Function.update_of_ne (StableHlo.devRef_ne_of_ne (by decide))]

theorem U1_arg1 (c : Dev nD) : U1 m c main_arg1 = Gen.V0 m c main_arg1 := by
  unfold U1
  rw [Function.update_of_ne (StableHlo.devRef_ne_of_ne (by decide)), Function.update_of_ne (StableHlo.devRef_ne_of_ne (by decide))]

theorem hF0 (c : Dev nD) (w : Fin cfg0.W) :
    (pdats m 0 c).arrAt w cfg0.N = Gen.V1 m (outsOf m) c (Pipeline.arrRef spec0 w) := by
  rw [V1_outsOf]
  match w with
  | ⟨0, _⟩ => exact ((dat0 (Ve0 m) c).arrAt_in 0 rfl _).trans (U1_arg0 m c).symm
  | ⟨1, _⟩ => exact ((dat0 (Ve0 m) c).arrAt_in 1 rfl _).trans (U1_arg1 m c).symm
  | ⟨2, _⟩ => exact (U1_v00 m c).symm
  | ⟨3, _⟩ => exact (U1_v01 m c).symm

/-- Every other unscoped buffer is as the region found it. -/
theorem hrest0 (c : Dev nD) : ∀ b, b ∉ Finset.univ.image (Pipeline.arrRef spec0) → Gen.V1 m (outsOf m) c b = Gen.V0 m c b :=
  fun b hb => Gen.V1_of m (outsOf m) c b (fun h => hb (by
    rcases List.mem_cons.mp h with rfl | h
    · exact Finset.mem_image.mpr ⟨2, Finset.mem_univ _, rfl⟩
    · rcases List.mem_cons.mp h with rfl | h
      · exact Finset.mem_image.mpr ⟨3, Finset.mem_univ _, rfl⟩
      · cases h))

set_option backward.isDefEq.respectTransparency.types false in
/-- The first region's record. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L lv 0 fun _ _ => rfl
  pre c := T (Gen.V0 m) c
  post c := T (Gen.V1 m (outsOf m)) c
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Ve0 m c) (fun b => Gen.V1 m (outsOf m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.SegR1.lean ====
/-
  The second region as an item of the program's run: entered from every unscoped buffer at the valuation after the host
  reshape, left with its output replaced by the accumulator after the last grid point. Its two input windows stand on the
  one array a: at entry the core's whole holding of a is cut in two half shares, at exit the halves are joined back.
-/
import proofs.«160447_j33363305955887_1_alg».proof.Proof.K.Segs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

theorem U3_v1 (c : Dev nD) : U3 m c main_v1 = Gen.V2 m (outsA m) c main_v1 := by
  unfold U3
  rw [Function.update_of_ne (StableHlo.devRef_ne_of_ne (by decide))]

/-- After the second region each of its arrays holds what the valuation after it says. -/
theorem hF1 (c : Dev nD) (w : Fin cfg1.W) :
    (pdats m 1 c).arrAt w cfg1.N = Gen.V3 m (outsOf m) c (Pipeline.arrRef spec1 w) := by
  rw [V3_outsOf]
  match w with
  | ⟨0, _⟩ => exact ((dat1 (Ve2 m) c).arrAt_in 0 rfl _).trans (U3_v1 m c).symm
  | ⟨1, _⟩ => exact ((dat1 (Ve2 m) c).arrAt_in 1 rfl _).trans (U3_v1 m c).symm
  | ⟨2, _⟩ => exact (U3_v2 m c).symm

/-- Every other unscoped buffer is as the region found it. -/
theorem hrest1 (c : Dev nD) : ∀ b, b ∉ Finset.univ.image (Pipeline.arrRef spec1) → Gen.V3 m (outsOf m) c b = Gen.V2 m (outsA m) c b :=
  fun b hb => (Gen.V3_of m (outsOf m) c b (fun h => hb (by
    rcases List.mem_cons.mp h with rfl | h
    · exact Finset.mem_image.mpr ⟨2, Finset.mem_univ _, rfl⟩
    · cases h))).trans (congrFun (V2_outsOf m c) _)

set_option backward.isDefEq.respectTransparency.types false in
/-- The second region's record. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (Ve2 m) c).loose
  hwaits := Pipeline.hwaits_of_owed_zero _ _ _ _ L lv 1 fun _ _ => rfl
  pre c := T (Gen.V2 m (outsOf m)) c
  post c := T (Gen.V3 m (outsOf m)) c
  X c := iprop(∃ r, prngReg c r)
  Y c := iprop(∃ r, prngReg c r)
  Z c := Pipeline.unscopedRest (Ix := Unit) (Name := ℕ) (U := UR sig nD τ) (Lvl := ℕ) spec1 c (Ve2 m c)
  hentry c := by
    rw [Pipeline.ownSems0_none]
    have hsplit := arrays1_of_unscopedBufs c (pdats m 1 c) rfl rfl (Ve2 m c) fun _ => rfl
    rw [Pipeline.unscopedBufs_held] at hsplit
    show iprop((StableHlo.held (c : Thread nD τ) (Pipeline.ucRefs τ sig) (Gen.V2 m (outsOf m) c) ∗ R c) ∗ _ ∗ _) ⊢ _
    rw [V2_outsOf]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 c (pdats m 1 c) rfl rfl
      (Ve2 m c) (fun b => Gen.V3 m (outsOf m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Run.lean ====
/-
  The program's run, with nothing left as a hypothesis: the launch's ghost state is the pipelines' cells alone, each core
  starts with its generator register and no debts, the two regions' records are the ones proved from their bodies, and
  every final memory holds each unscoped buffer at the last valuation.
-/
import proofs.«160447_j33363305955887_1_alg».proof.Proof.K.SegR0
import proofs.«160447_j33363305955887_1_alg».proof.Proof.K.SegR1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

set_option backward.isDefEq.respectTransparency.types false in
/-- Every weakly fair execution of @main from memory `m` with zero counters ends, nothing faulting, with every unscoped
    buffer of every core at the last valuation. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = Gen.V4 m (outsOf m) c b) :=
  run_cond m (emb₁ : Emb _ 𝕄) () 𝒱₀ L lv (fun _ _ => rfl) ρ (outsOf m) (pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE2 := fun c => by
      iintro ⟨-, HO⟩
      iexact HO)
    (reg0 m) (fun c => .rfl) (fun c => .rfl) (reg1 m) (fun c => .rfl) (fun c => .rfl)

end Cert.Kernel.Hand

end
-- ==== Proof.K.Claims.lean ====
/-
  The frame: every run ends and leaves the two argument arrays as launched. No host operation writes an argument and no
  region's output is one, so the last valuation at an argument is the launch memory.
-/
import proofs.«160447_j33363305955887_1_alg».proof.Proof.K.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-- An unscoped reference of the core is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem frame_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (Gen.V4_main_arg0 m (outsOf m) c),
     (h c _ (mem_uc main_arg1 (by decide))).trans (Gen.V4_main_arg1 m (outsOf m) c)⟩) (run_main m ρ)

end Cert.Kernel.Hand

end
-- ==== Proof.KI.Terms.lean ====
/-
  The values the two kernel regions compute, as pure terms of the arrays they read.
  Region 0 (one grid point, whole-array blocks): from the prediction x0 : f32[2,4,96,96] and the label x1 : f32[2,2,96,96],
  the row `scal x0 x1 : f32[1,4]` of four whole-array sums (density loss, pull variance, mask count, non-zero count)
  and the map `amap x0 x1 : f32[2,1,96,96]`, the masked mean tag a.
  Region 1 (a 12 x 12 grid over the 768-wide column tiles of a : f32[2,9216]): point n = 12 i + j adds to a one-by-one
  accumulator the sum over the tile pair (i, j) of the pairwise term; `pushAt a n` is the accumulator after point n,
  started from zero at point 0.
-/
import proofs.«160447_j33363305955887_1_alg».proof.Proof.Gen.KernelIdeal.Skeleton
import Idealize.ShloMosaic.Lib.ValueIdx

noncomputable section

namespace Cert.KernelIdeal.Hand

open Idealize.ShloMosaic Idealize.SL.Sem Cert.KernelIdeal Cert.KernelIdeal.Gen

variable {F : FTy → Type} [FloatOps F]

/-- Region 0's first output: the four sums, side by side. -/
def scal (x0 : Vec F S2x4x96x96 .f32) (x1 : Vec F S2x2x96x96 .f32) : Vec F S1x4 .f32 :=
  k0_pay2 (k0_pay3 x1) (k0_pay5 x0 x1) (k0_pay7 x0 x1) (k0_pay8 x0 x1)

/-- Region 0's second output: the masked mean tag, one value per batch and pixel. -/
def amap (x0 : Vec F S2x4x96x96 .f32) (x1 : Vec F S2x2x96x96 .f32) : Vec F S2x1x96x96 .f32 :=
  k0_pay1 (k0_pay3 x1) (k0_pay7 x0 x1)

/-- Column tile `i` (768 wide) of a two-row array of 9216 columns. -/
def tile (a : Vec F S2x9216 .f32) (i : Fin 12) : Vec F S2x768 .f32 :=
  fun y => a (ValueIdx.ix2 (n0 := 2) (n1 := 9216) ⟨(y 0).val, (y 0).isLt⟩
    ⟨i.val * 768 + (y 1).val, by have h1 : (y 1).val < 768 := (y 1).isLt; have := i.isLt; omega⟩)

/-- The accumulator after grid point `n` (row-major over the 12 x 12 grid): zero, then one tile pair's sum added per point. -/
def pushAt (a : Vec F S2x9216 .f32) : (n : ℕ) → n < 144 → Vec F S1x1 .f32
  | 0, _ => k1_pay1 (k1_pay3 (tile a ⟨0, by omega⟩) (tile a ⟨0, by omega⟩)) (k1_pay2 (F := F))
  | n + 1, h => k1_pay1 (k1_pay3 (tile a ⟨(n + 1) / 12, by omega⟩) (tile a ⟨(n + 1) % 12, by omega⟩)) (pushAt a n (by omega))

end Cert.KernelIdeal.Hand

end
-- ==== Proof.KI.Reg0.lean ====
/-
  The first region (one grid point; every window's block is its whole array). From the two argument arrays as the region
  finds them it leaves in its first output the row of four sums `scal` and in its second the map `amap`; the inputs stay.
  The proof data of its pipeline, the body's run on whole staging buffers, and what the two output arrays hold after the
  region's one write-back.
-/
import proofs.«160447_j33363305955887_1_alg».proof.Proof.KI.Terms
import proofs.«160447_j33363305955887_1_alg».proof.Proof.Gen.KernelIdeal.Launch
import proofs.«160447_j33363305955887_1_alg».proof.Proof.Gen.KernelIdeal.Skeleton
import proofs.«160447_j33363305955887_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffer contents of every core when the region is entered
variable (V : (c : Dev nD) → (b : Ref sig .tc) → Buf (Elt F) ((c : Thread nD τ).loc b))

/-! ## The windows' blocks and the proof data -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- After the body: the inputs' buffers at their blocks, the first output's at the four sums of the two input blocks,
    the second's at the map a of the two input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => scal (iblk0 V c 0 t) (iblk0 V c 1 t)
    | ⟨3, _⟩ => amap (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = scal (iblk0 V c 0 t) (iblk0 V c 1 t) := by dsimp only [dat0]
theorem after0_3 (c : Dev nD) (t : Fin cfg0.N) : (dat0 V c).after 3 t = amap (iblk0 V c 0 t) (iblk0 V c 1 t) := by dsimp only [dat0]

/-! ## The inputs' staging buffers -/

/-- An input window is fetched at every point and never written by the body, so its current staging buffer holds
    its block at every point: for any proof data over the entry arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d

theorem before0_1 (c : Dev nD) (t : Fin cfg0.N) (d) : (dat0 V c).before 1 t d = iblk0 V c 1 t :=
  before0_1_of V (dat0 V c) (A_eq0 V c 1) (after0_1 V c) t d

/-! ## The body's accesses: every load and store is of a whole buffer -/

theorem zeros2 : (![0, 0] : Fin 2 → Nat) = fun _ => 0 := funext fun a => by fin_cases a <;> rfl
theorem zeros4 : (![0, 0, 0, 0] : Fin 4 → Nat) = fun _ => 0 := funext fun a => by fin_cases a <;> rfl

/-- The whole of each window's buffer, as the body names it. -/
abbrev whole0 : Rect S2x4x96x96 := Rect.unit (s := S2x4x96x96) ![0, 0, 0, 0] S2x4x96x96.size inb_S2x4x96x96_S2x4x96x96_0_0_0_0
abbrev whole1 : Rect S2x2x96x96 := Rect.unit (s := S2x2x96x96) ![0, 0, 0, 0] S2x2x96x96.size inb_S2x2x96x96_S2x2x96x96_0_0_0_0
abbrev whole2 : Rect S1x4 := Rect.unit (s := S1x4) ![0, 0] S1x4.size inb_S1x4_S1x4_0_0
abbrev whole3 : Rect S2x1x96x96 := Rect.unit (s := S2x1x96x96) ![0, 0, 0, 0] S2x1x96x96.size inb_S2x1x96x96_S2x1x96x96_0_0_0_0

/-- One store of the whole buffer covers it. -/
theorem cover0_2 (p : Vec F S1x4 .f32) (y : S1x4.Idx) :
    ∃ pc ∈ ([⟨whole2, p⟩] : List (View.Piece (Elt F) S1x4 .f32)), y ∈ pc.1.set :=
  ⟨_, List.mem_singleton_self _, View.mem_set_unit_zero zeros2 inb_S1x4_S1x4_0_0 y⟩

theorem cover0_3 (p : Vec F S2x1x96x96 .f32) (y : S2x1x96x96.Idx) :
    ∃ pc ∈ ([⟨whole3, p⟩] : List (View.Piece (Elt F) S2x1x96x96 .f32)), y ∈ pc.1.set :=
  ⟨_, List.mem_singleton_self _, View.mem_set_unit_zero zeros4 inb_S2x1x96x96_S2x1x96x96_0_0_0_0 y⟩

/-- A load of a whole buffer reads its contents; one store of a whole buffer leaves its payload. -/
theorem ld_whole0 (x : Vec F S2x4x96x96 .f32) : View.ld x whole0 = x := View.ld_unit_zero zeros4 _ x
theorem ld_whole1 (x : Vec F S2x2x96x96 .f32) : View.ld x whole1 = x := View.ld_unit_zero zeros4 _ x
theorem canon_whole2 (p : Vec F S1x4 .f32) : View.canon [(⟨whole2, p⟩ : View.Piece (Elt F) S1x4 .f32)] = p :=
  View.canon_unit_zero zeros2 _ p
theorem canon_whole3 (p : Vec F S2x1x96x96 .f32) : View.canon [(⟨whole3, p⟩ : View.Piece (Elt F) S2x1x96x96 .f32)] = p :=
  View.canon_unit_zero zeros4 _ p

/-! ## The body's triple -/

set_option maxHeartbeats 1000000 in
/-- The body on whole staging buffers, the inputs' at contents x0 and x1 and the outputs' at anything: it reads both
    inputs whole, reads each output whole (a dead value) and then stores it whole, the four sums of x0 and x1 into the first
    and the map a of x0 and x1 into the second; the inputs stay. -/
theorem sound_kernel0 (c : Dev nD) (E : Set ℕ) (i : grid0.Coords)
    (arg1 : Memref sig .tc .vmem S2x4x96x96 .f32) (harg1 : arg1.IsWhole) (arg2 : Memref sig .tc .vmem S2x2x96x96 .f32) (harg2 : arg2.IsWhole)
    (arg3 : Memref sig .tc .vmem S1x4 .f32) (harg3 : arg3.IsWhole) (arg4 : Memref sig .tc .vmem S2x1x96x96 .f32) (harg4 : arg4.IsWhole)
    (x0 : Vec F S2x4x96x96 .f32) (x1 : Vec F S2x2x96x96 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (scal x0 x1) ∗ owns (c : Thread nD τ) arg4 fullShare (amap x0 x1)) -∗ K ⟨⟩))
      ⊢ wp frame (wpE (defs₀ (F := F)) Variants.none c none) E (cc0__kernel_elementwise i arg1 harg1 arg2 harg2 arg3 harg3 arg4 harg4) K := by
  simp only [cc0__kernel_elementwise_eq_skeleton]; unfold cc0__kernel_elementwise_skel
  simp only [k0_part1_eq_skeleton]; unfold k0_part1_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  have e0 : View.readAt (Elt F) arg1.view whole0.toLoadRect f0 = View.read (Elt F) arg1.view f0 := ld_whole0 _
  have e1 : View.readAt (Elt F) arg2.view whole1.toLoadRect f1 = View.read (Elt F) arg2.view f1 := ld_whole1 _
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover0_2 _)).trans ?_
    refine (canon_whole2 _).trans ?_
    simp only [e0, e1]
    rfl
  iexists _; isplitr
  swap; · iexact H3
  ipureintro
  refine (View.read_writes_eq_canon _ _ _ (cover0_3 _)).trans ?_
  refine (canon_whole3 _).trans ?_
  simp only [e0, e1]
  rfl

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, the outputs' anything; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

/-! ## What the output arrays hold after the region -/

/-- Every window's block index is zero on every axis at every point: the block is the array. -/
theorem index0_0 : ∀ (t : Fin cfg0.N) (a : Fin 4), win0_0.index t a = 0 :=
  (by decide +kernel : ∀ (t : Fin grid0.N) (a : Fin 4), win0_0.index t a = 0)
theorem index0_1 : ∀ (t : Fin cfg0.N) (a : Fin 4), win0_1.index t a = 0 :=
  (by decide +kernel : ∀ (t : Fin grid0.N) (a : Fin 4), win0_1.index t a = 0)
theorem index0_2 : ∀ (t : Fin cfg0.N) (a : Fin 2), win0_2.index t a = 0 :=
  (by decide +kernel : ∀ (t : Fin grid0.N) (a : Fin 2), win0_2.index t a = 0)
theorem index0_3 : ∀ (t : Fin cfg0.N) (a : Fin 4), win0_3.index t a = 0 :=
  (by decide +kernel : ∀ (t : Fin grid0.N) (a : Fin 4), win0_3.index t a = 0)

/-- Each input's block is its whole array as the region finds it. -/
theorem iblk0_0 (c : Dev nD) (t : Fin cfg0.N) : iblk0 V c 0 t = (V c main_arg0 : Vec F S2x4x96x96 .f32) := by
  have hz : (fun a => win0_0.index t a * main_arg0.ty.shape.size a) = fun _ => 0 :=
    funext fun a => by rw [index0_0 t a, Nat.zero_mul]
  exact Memref.read_access_unit_zero (Elt F) main_arg0 hz (fun a => by rw [congrFun hz a]; simp) (V c main_arg0)

theorem iblk0_1 (c : Dev nD) (t : Fin cfg0.N) : iblk0 V c 1 t = (V c main_arg1 : Vec F S2x2x96x96 .f32) := by
  have hz : (fun a => win0_1.index t a * main_arg1.ty.shape.size a) = fun _ => 0 :=
    funext fun a => by rw [index0_1 t a, Nat.zero_mul]
  exact Memref.read_access_unit_zero (Elt F) main_arg1 hz (fun a => by rw [congrFun hz a]; simp) (V c main_arg1)

/-- What a point writes back into the first output is the block, the whole, of the four sums of the argument arrays. -/
theorem flushed0_2 (c : Dev nD) (t : Fin cfg0.N) :
    (dat0 V c).flushed 2 t = ((cfg0.win 2).blk t).view.read (Elt F) (scal (V c main_arg0) (V c main_arg1)) := by
  show (cfg0.win 2).cut (grid0.coords t) ((dat0 V c).after 2 t) = _
  rw [after0_2, iblk0_0, iblk0_1]
  have hz : (fun a => win0_2.index t a * main_v0_0.ty.shape.size a) = fun _ => 0 :=
    funext fun a => by rw [index0_2 t a, Nat.zero_mul]
  exact (Memref.read_access_unit_zero (Elt F) main_v0_0 hz (fun a => by rw [congrFun hz a]; simp)
    (scal (V c main_arg0) (V c main_arg1))).symm

/-- and into the second, of the map a of the argument arrays. -/
theorem flushed0_3 (c : Dev nD) (t : Fin cfg0.N) :
    (dat0 V c).flushed 3 t = ((cfg0.win 3).blk t).view.read (Elt F) (amap (V c main_arg0) (V c main_arg1)) := by
  show (cfg0.win 3).cut (grid0.coords t) ((dat0 V c).after 3 t) = _
  rw [after0_3, iblk0_0, iblk0_1]
  have hz : (fun a => win0_3.index t a * main_v0_1.ty.shape.size a) = fun _ => 0 :=
    funext fun a => by rw [index0_3 t a, Nat.zero_mul]
  exact (Memref.read_access_unit_zero (Elt F) main_v0_1 hz (fun a => by rw [congrFun hz a]; simp)
    (amap (V c main_arg0) (V c main_arg1))).symm

/-- Every index of an output array is in the block of every point. -/
theorem mem_blk0_2 (t : Fin cfg0.N) (i : S1x4.Idx) : i ∈ ((cfg0.win 2).blk t).view.set := by
  show i ∈ ((View.whole main_v0_0).slice (win0_2.rect t)).set
  rw [View.set_slice_whole, Rect.mem_set_unit]
  intro a
  show win0_2.index t a * S1x4.size a ≤ (i a).val ∧ (i a).val < win0_2.index t a * S1x4.size a + S1x4.size a
  rw [index0_2 t a, Nat.zero_mul, Nat.zero_add]
  exact ⟨Nat.zero_le _, (i a).isLt⟩

theorem mem_blk0_3 (t : Fin cfg0.N) (i : S2x1x96x96.Idx) : i ∈ ((cfg0.win 3).blk t).view.set := by
  show i ∈ ((View.whole main_v0_1).slice (win0_3.rect t)).set
  rw [View.set_slice_whole, Rect.mem_set_unit]
  intro a
  show win0_3.index t a * S2x1x96x96.size a ≤ (i a).val ∧ (i a).val < win0_3.index t a * S2x1x96x96.size a + S2x1x96x96.size a
  rw [index0_3 t a, Nat.zero_mul, Nat.zero_add]
  exact ⟨Nat.zero_le _, (i a).isLt⟩

/-- The grid's one point writes both outputs back whole, so after the region the first output array holds the four
    sums of the argument arrays -/
theorem final0_2 (c : Dev nD) : (dat0 V c).arrAt 2 cfg0.N = scal (V c main_arg0) (V c main_arg1) :=
  (dat0 V c).arrAt_eq_of_cover 2 (scal (V c main_arg0) (V c main_arg1)) (fun t _ => flushed0_2 V c t)
    fun i => ⟨t0_0, flush0_2 t0_0, mem_blk0_2 t0_0 i⟩

/-- and the second the map a of the argument arrays. -/
theorem final0_3 (c : Dev nD) : (dat0 V c).arrAt 3 cfg0.N = amap (V c main_arg0) (V c main_arg1) :=
  (dat0 V c).arrAt_eq_of_cover 3 (amap (V c main_arg0) (V c main_arg1)) (fun t _ => flushed0_3 V c t)
    fun i => ⟨t0_0, flush0_3 t0_0, mem_blk0_3 t0_0 i⟩

end Cert.KernelIdeal.Hand

end
-- ==== Proof.KI.Reg1.lean ====
/-
  The second region (a 12 x 12 grid; two input windows on the one array a, column tile i = point / 12 and column tile
  j = point % 12; one one-by-one output block with a constant index map, so it stays in its staging buffer from the first
  point to the last and is written back once, at the last). The body zeroes the block at point 0 and adds the tile pair's
  sum at every point: after point n the block holds `pushAt a n`.
-/
import proofs.«160447_j33363305955887_1_alg».proof.Proof.KI.Terms
import proofs.«160447_j33363305955887_1_alg».proof.Proof.Gen.KernelIdeal.Launch
import proofs.«160447_j33363305955887_1_alg».proof.Proof.Gen.KernelIdeal.Skeleton
import proofs.«160447_j33363305955887_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffer contents of every core when the region is entered
variable (V : (c : Dev nD) → (b : Ref sig .tc) → Buf (Elt F) ((c : Thread nD τ).loc b))

/-! ## The windows' blocks and the proof data -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- After the body at point `t`: the inputs' buffers at their blocks, the accumulator at the sum over the points up to `t`.
    The one array a is held half by each input window. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => pushAt (V c main_v1) t.val (lt_of_lt_of_eq t.isLt N_1)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

/-! ## The body's branch condition -/

/-- The body resets the accumulator exactly when both grid coordinates are zero. -/
abbrev cond1 (i : grid1.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1

/-- That is at the first point only. -/
theorem hcond1 : ∀ t : Fin cfg1.N, cond1 (grid1.coords t) ↔ t.val = 0 :=
  (by decide +kernel : ∀ t : Fin grid1.N, cond1 (grid1.coords t) ↔ t.val = 0)

/-- The zero offsets of a whole-block rectangle of rank two. -/
theorem hz1x1 : (![0, 0] : Fin 2 → Nat) = fun _ => 0 := by
  funext a; match a with | ⟨0, _⟩ => rfl | ⟨1, _⟩ => rfl

/-! ## The body on any staging buffers, in its two cases -/

set_option maxHeartbeats 1000000 in
/-- The reset case (both coordinates zero). On whole staging buffers, the inputs' at `x0` and `x1` and the accumulator's
    at anything, the body stores the zero block, reads it back, and stores the tile pair's sum added to it: the
    accumulator's buffer ends at `k1_pay1 (k1_pay3 x0 x1) k1_pay2`, the inputs' as they were. The last store covers
    the block, so its payload is what the buffer reads; the read-back after the zeroing store reads the zero block. -/
theorem run1_first (c : Dev nD) (i : grid1.Coords) (arg2 : Memref sig .tc .vmem S2x768 .f32) (harg2 : arg2.IsWhole)
    (arg3 : Memref sig .tc .vmem S2x768 .f32) (harg3 : arg3.IsWhole) (arg4 : Memref sig .tc .vmem S1x1 .f32) (harg4 : arg4.IsWhole)
    (hc : cond1 i) (x0 x1 : Vec F S2x768 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (k1_pay1 (k1_pay3 x0 x1) (k1_pay2 (F := F)))) -∗ K ⟨⟩))
      ⊢ wp frame (wpE (defs₀ (F := F)) Variants.none c none) E (cc1__kernel_push i arg2 harg2 arg3 harg3 arg4 harg4) K := by
  simp only [cc1__kernel_push_eq_skeleton]; unfold cc1__kernel_push_skel
  simp only [k1_part1_eq_skeleton]; unfold k1_part1_skel
  unfold owns
  iintro ⟨⟨%f0, %hf0, H0⟩, ⟨%f1, %hf1, H1⟩, ⟨%d2, %f2, -, H2⟩, Hk⟩
  obtain rfl := harg2.eq_unread hf0; obtain rfl := harg3.eq_unread hf1
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H2
  ipureintro
  rw [View.read_writes_eq_canon _ _ _ (fun y => ⟨_, List.mem_cons_self, View.mem_set_unit_zero hz1x1 inb_S1x1_S1x1_0_0 y⟩)]
  dsimp only
  sl_unfold_words
  rw [View.canon_cons_unit_zero (S := S1x1) hz1x1, View.readCov_unit_zero (S := S1x1) _ hz1x1]
  simp only [View.readAt_eq_ld, harg2.read_unread, harg3.read_unread, View.ld_unit_zero (S := S2x768) hz1x1]

set_option maxHeartbeats 1000000 in
/-- The adding case (some coordinate not zero). On whole staging buffers, the inputs' at `x0` and `x1` and the
    accumulator's at `xo`, the body reads the accumulator and stores the tile pair's sum added to it: the
    accumulator's buffer ends at `k1_pay1 (k1_pay3 x0 x1) xo`, the inputs' as they were. -/
theorem run1_later (c : Dev nD) (i : grid1.Coords) (arg2 : Memref sig .tc .vmem S2x768 .f32) (harg2 : arg2.IsWhole)
    (arg3 : Memref sig .tc .vmem S2x768 .f32) (harg3 : arg3.IsWhole) (arg4 : Memref sig .tc .vmem S1x1 .f32) (harg4 : arg4.IsWhole)
    (hc : ¬cond1 i) (x0 x1 : Vec F S2x768 .f32) (xo : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare xo
        ∗ (iprop(owns (c : Thread nD τ) arg2 fullShare x0 ∗ owns (c : Thread nD τ) arg3 fullShare x1
            ∗ owns (c : Thread nD τ) arg4 fullShare (k1_pay1 (k1_pay3 x0 x1) xo)) -∗ K ⟨⟩))
      ⊢ wp frame (wpE (defs₀ (F := F)) Variants.none c none) E (cc1__kernel_push i arg2 harg2 arg3 harg3 arg4 harg4) K := by
  simp only [cc1__kernel_push_eq_skeleton]; unfold cc1__kernel_push_skel
  simp only [k1_part1_eq_skeleton]; unfold k1_part1_skel
  unfold owns
  iintro ⟨⟨%f0, %hf0, H0⟩, ⟨%f1, %hf1, H1⟩, ⟨%f2, %hf2, H2⟩, Hk⟩
  obtain rfl := harg2.eq_unread hf0; obtain rfl := harg3.eq_unread hf1; obtain rfl := harg4.eq_unread hf2
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H2
  ipureintro
  rw [View.read_writes_eq_canon _ _ _ (fun y => ⟨_, List.mem_cons_self, View.mem_set_unit_zero hz1x1 inb_S1x1_S1x1_0_0 y⟩)]
  dsimp only
  sl_unfold_words
  rw [View.canon_unit_zero (S := S1x1) hz1x1]
  simp only [View.readAt_eq_ld, harg2.read_unread, harg3.read_unread, harg4.read_unread,
    View.ld_unit_zero (S := S2x768) hz1x1, View.ld_unit_zero (S := S1x1) hz1x1]

/-! ## The input blocks are column tiles of the one array -/

/-- The two input windows' block indices over the grid: both at row block 0; the first at column tile point / 12,
    the second at column tile point % 12. -/
theorem idx_facts1 : ∀ t : Fin cfg1.N, win1_0.index t (0 : Fin 2) = 0 ∧ win1_0.index t (1 : Fin 2) = t.val / 12
    ∧ win1_1.index t (0 : Fin 2) = 0 ∧ win1_1.index t (1 : Fin 2) = t.val % 12 :=
  (by decide +kernel : ∀ t : Fin grid1.N, _)

/-- The first input block at point `t` is column tile `t / 12`. -/
theorem iblk1_0_eq (c : Dev nD) (t : Fin cfg1.N) :
    iblk1 V c 0 t = tile (V c main_v1) ⟨t.val / 12, by have := lt_of_lt_of_eq t.isLt N_1; omega⟩ := by
  obtain ⟨e0, e1, -, -⟩ := idx_facts1 t
  funext y
  show V c main_v1 (((cfg1.win 0).blk t).view.emb y) = V c main_v1 _
  refine congrArg _ ?_
  funext a; apply Fin.ext
  match a with
  | ⟨0, _⟩ => show win1_0.index t (0 : Fin 2) * 2 + 1 * (y 0).val = (y 0).val; omega
  | ⟨1, _⟩ => show win1_0.index t (1 : Fin 2) * 768 + 1 * (y 1).val = t.val / 12 * 768 + (y 1).val; omega

/-- The second input block at point `t` is column tile `t % 12`. -/
theorem iblk1_1_eq (c : Dev nD) (t : Fin cfg1.N) :
    iblk1 V c 1 t = tile (V c main_v1) ⟨t.val % 12, Nat.mod_lt _ (by omega)⟩ := by
  obtain ⟨-, -, e0, e1⟩ := idx_facts1 t
  funext y
  show V c main_v1 (((cfg1.win 1).blk t).view.emb y) = V c main_v1 _
  refine congrArg _ ?_
  funext a; apply Fin.ext
  match a with
  | ⟨0, _⟩ => show win1_1.index t (0 : Fin 2) * 2 + 1 * (y 0).val = (y 0).val; omega
  | ⟨1, _⟩ => show win1_1.index t (1 : Fin 2) * 768 + 1 * (y 1).val = t.val % 12 * 768 + (y 1).val; omega

/-! ## What the staging buffers hold when the body runs -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = pushAt (V c main_v1) t.val (lt_of_lt_of_eq t.isLt N_1) := by dsimp only [dat1]

/-- The first input's buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- So does the second input's. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- After the first point the accumulator's buffer holds what the point before left: it is written back at the last
    point only. -/
theorem before1_2 (c : Dev nD) (t : Fin cfg1.N) (h0 : t.val ≠ 0) (d) :
    (dat1 V c).before 2 t d = pushAt (V c main_v1) (t.val - 1) (by have := lt_of_lt_of_eq t.isLt N_1; omega) := by
  have hN : t.val < 144 := lt_of_lt_of_eq t.isLt N_1
  rw [Dat.before_out_kept _ 2 rfl t h0 (Bool.eq_false_iff.mpr fun h => by have := (flush1_2 _).mp h; dsimp only at this; omega)
    (fun _ => rfl) (fun _ _ => rfl)]
  dsimp only [dat1]

/-! ## The accumulator's two equations, at a point of the grid -/

/-- The accumulator after point 0, its two tiles named by any indices that are zero. -/
theorem pushAt_zero (a : Vec F S2x9216 .f32) (i j : Fin 12) (hi : i.val = 0) (hj : j.val = 0) (h : 0 < 144) :
    pushAt a 0 h = k1_pay1 (k1_pay3 (tile a i) (tile a j)) (k1_pay2 (F := F)) := by
  obtain ⟨i, _⟩ := i; obtain ⟨j, _⟩ := j
  dsimp only at hi hj
  subst hi; subst hj
  rfl

/-- At the first point the accumulator is the first tile pair's sum added to zero. -/
theorem pushAt_first (c : Dev nD) (t : Fin cfg1.N) (h0 : t.val = 0) :
    pushAt (V c main_v1) t.val (lt_of_lt_of_eq t.isLt N_1)
      = k1_pay1 (k1_pay3 (iblk1 V c 0 t) (iblk1 V c 1 t)) (k1_pay2 (F := F)) := by
  rw [iblk1_0_eq, iblk1_1_eq]
  obtain ⟨n, hn⟩ := t
  cases n with
  | zero => exact pushAt_zero _ _ _ (Nat.zero_div 12) (Nat.zero_mod 12) _
  | succ n => exact absurd h0 (Nat.succ_ne_zero n)

/-- At a later point it is the point's tile pair's sum added to what the point before left. -/
theorem pushAt_later (c : Dev nD) (t : Fin cfg1.N) (h0 : t.val ≠ 0) :
    pushAt (V c main_v1) t.val (lt_of_lt_of_eq t.isLt N_1)
      = k1_pay1 (k1_pay3 (iblk1 V c 0 t) (iblk1 V c 1 t))
          (pushAt (V c main_v1) (t.val - 1) (by have := lt_of_lt_of_eq t.isLt N_1; omega)) := by
  rw [iblk1_0_eq, iblk1_1_eq]
  obtain ⟨n, hn⟩ := t
  cases n with
  | zero => exact absurd rfl h0
  | succ n => rfl

/-! ## The body at a point of the grid -/

/-- Each window's current staging buffer at point `t`, as the pipeline hands it to the body. -/
abbrev ms1_0 (t : Fin cfg1.N) : Memref sig .tc .vmem S2x768 .f32 := win1_0.stage (cfg1.slots t 0)
abbrev ms1_1 (t : Fin cfg1.N) : Memref sig .tc .vmem S2x768 .f32 := win1_1.stage (cfg1.slots t 1)
abbrev ms1_2 (t : Fin cfg1.N) : Memref sig .tc .vmem S1x1 .f32 := win1_2.stage (cfg1.slots t 2)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 800000 in
/-- The body at any point: the inputs' buffers hold their blocks; at the first point the accumulator's buffer holds
    anything and the body resets it, at a later point it holds what the point before left and the body adds to that;
    the invariant and the core's debts pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  by_cases h0 : t.val = 0
  · rw [pushAt_first V c t h0]
    iintro ⟨HΦ, Ho, ⟨%d0, H0⟩, ⟨%d1, H1⟩, ⟨%d2, H2⟩⟩
    iapply (run1_first c (grid1.coords t) _ _ _ _ _ _ ((hcond1 t).mpr h0) (iblk1 V c 0 t) (iblk1 V c 1 t) Set.univ _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · simp only [before1_2 V c t h0]
    rw [pushAt_later V c t h0]
    iintro ⟨HΦ, Ho, ⟨%d0, H0⟩, ⟨%d1, H1⟩, ⟨%d2, H2⟩⟩
    iapply (run1_later c (grid1.coords t) _ _ _ _ _ _ (fun h => h0 ((hcond1 t).mp h)) (iblk1 V c 0 t) (iblk1 V c 1 t) _ Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-! ## The body obligation -/

theorem body_obligation1 (c : Dev nD) : BodyObligation (dat1 (F := F) V c) (defs₀ (F := F)) Variants.none () Set.univ := fun t => by
  rw [bigSep_W1, bigSep_W1]
  exact sound_body1 V c t

/-! ## What the output array holds after the region -/

/-- The accumulator's block index is zero on both axes at every point: the block is the one-by-one array. -/
theorem index1_2 : ∀ (t : Fin cfg1.N) (a : Fin 2), win1_2.index t a = 0 :=
  (by decide +kernel : ∀ (t : Fin grid1.N) (a : Fin 2), win1_2.index t a = 0)

/-- The one point that writes back, the last, writes the block, the whole array, of the accumulator after point 143. -/
theorem flushed1_2 (c : Dev nD) (t : Fin cfg1.N) (hf : (cfg1.win 2).flush t = true) :
    (dat1 V c).flushed 2 t = ((cfg1.win 2).blk t).view.read (Elt F) (pushAt (V c main_v1) 143 (by omega)) := by
  show (cfg1.win 2).cut (grid1.coords t) ((dat1 V c).after 2 t) = _
  rw [after1_2]
  have hN : t.val < 144 := lt_of_lt_of_eq t.isLt N_1
  have h143 : t.val = 143 := by have := (flush1_2 t).mp hf; omega
  have hz : (fun a => win1_2.index t a * main_v2.ty.shape.size a) = fun _ => 0 :=
    funext fun a => by rw [index1_2 t a, Nat.zero_mul]
  refine Eq.trans ?_ (Memref.read_access_unit_zero (Elt F) main_v2 hz (fun a => by rw [congrFun hz a]; simp)
    (pushAt (V c main_v1) 143 (by omega))).symm
  obtain ⟨n, hn⟩ := t
  dsimp only at h143
  subst h143
  rfl

/-- Every index of the output array is in the block of every point. -/
theorem mem_blk1_2 (t : Fin cfg1.N) (i : S1x1.Idx) : i ∈ ((cfg1.win 2).blk t).view.set := by
  show i ∈ ((View.whole main_v2).slice (win1_2.rect t)).set
  rw [View.set_slice_whole, Rect.mem_set_unit]
  intro a
  show win1_2.index t a * S1x1.size a ≤ (i a).val ∧ (i a).val < win1_2.index t a * S1x1.size a + S1x1.size a
  rw [index1_2 t a, Nat.zero_mul, Nat.zero_add]
  exact ⟨Nat.zero_le _, (i a).isLt⟩

/-- The last point, the only one that writes back, writes the whole array: after the region the output array holds the
    accumulator after point 143. -/
theorem final1_2 (c : Dev nD) : (dat1 V c).arrAt 2 cfg1.N = pushAt (V c main_v1) 143 (by omega) :=
  (dat1 V c).arrAt_eq_of_cover 2 (pushAt (V c main_v1) 143 (by omega)) (fun t hf => flushed1_2 V c t hf)
    fun i => ⟨⟨143, by rw [show cfg1.N = 144 from N_1]; omega⟩, (flush1_2 _).mpr rfl, mem_blk1_2 _ i⟩

end Cert.KernelIdeal.Hand

end
-- ==== Proof.KI.Shares1.lean ====
/-
  The second region's three windows stand on two buffers: both input windows read the one array a, the output window owns
  the one-by-one result. At the region's entry the core's whole holding of a is cut into two half shares, one per input
  window (a read needs only a share); at its exit the two halves, still at the same contents since no window writes a,
  are joined back into the whole.
-/
import proofs.«160447_j33363305955887_1_alg».proof.Proof.KI.Terms
import proofs.«160447_j33363305955887_1_alg».proof.Proof.Gen.KernelIdeal.Launch
import proofs.«160447_j33363305955887_1_alg».proof.Proof.Gen.KernelIdeal.Skeleton
import proofs.«160447_j33363305955887_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffer contents of every core when the region is entered
variable (V : (c : Dev nD) → (b : Ref sig .tc) → Buf (Elt F) ((c : Thread nD τ).loc b))

/-- The buffers behind the region's three windows: the array a, under both input windows, and the result. -/
theorem arrRefs1 : Finset.univ.image (Pipeline.arrRef spec1) = {main_v1, main_v2} := by decide

/-- The distinct buffers behind the windows, one by one: a whole and the result whole. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v1) ↦{fullShare} W main_v1) ∗ (((c : Thread nD τ).loc main_v2) ↦{fullShare} W main_v2)) := by
  unfold Pipeline.arrBufs
  rw [arrRefs1, bigSep_insert (by decide), bigSep_singleton]
  rfl

/-- The region's arrays window by window: a at the left half under the first input window and at the right half under
    the second, the result whole under the output window. -/
theorem arrays1_eq (c : Dev nD) (dat : Dat τ (Elt F) Unit ℕ (UR sig nD τ) ℕ cfg1 c)
    (hq0 : dat.q 0 = fullShare.left) (hq1 : dat.q 1 = fullShare.right)
    (G : (w : Fin cfg1.W) → Buf (Elt F) ((cfg1.win w).arr.view.loc (c : Thread nD τ))) :
    (dat.arrays G : sProp 𝕄)
      = iprop((((c : Thread nD τ).loc main_v1) ↦{fullShare.left} G 0) ∗ (((c : Thread nD τ).loc main_v1) ↦{fullShare.right} G 1)
          ∗ (((c : Thread nD τ).loc main_v2) ↦{fullShare} G 2)) := by
  unfold Dat.arrays
  -- the two input windows stand on one array, so one rewrite of its element set serves both
  rw [bigSep_W1, (arr_whole1 0).set_eq_univ, (arr_whole1 2).set_eq_univ,
    show dat.share 0 = fullShare.left from hq0, show dat.share 1 = fullShare.right from hq1, show dat.share 2 = fullShare from rfl]

/-- ENTRY: the core's unscoped buffers at contents `W` are the region's arrays — a at a half share under each input
    window, the result whole — beside the unscoped buffers that are no array of the region. -/
theorem arrays1_of_unscopedBufs (c : Dev nD) (dat : Dat τ (Elt F) Unit ℕ (UR sig nD τ) ℕ cfg1 c)
    (hq0 : dat.q 0 = fullShare.left) (hq1 : dat.q 1 = fullShare.right)
    (W : (b : Ref sig .tc) → Buf (Elt F) ((c : Thread nD τ).loc b)) (hA : ∀ w, dat.A w = W (Pipeline.arrRef spec1 w)) :
    (unscopedBufs c W : sProp 𝕄)
      ⊢ iprop(dat.arrays (dat.arrAt · 0) ∗ Pipeline.unscopedRest (Ix := Unit) (Name := ℕ) (U := UR sig nD τ) (Lvl := ℕ) spec1 c W) := by
  -- the unscoped buffers are the two buffers behind the windows and the rest; a's whole holding is cut in two halves
  rw [show (unscopedBufs c W : sProp 𝕄)
        = iprop((Pipeline.arrBufs (Ix := Unit) (Name := ℕ) (U := UR sig nD τ) (Lvl := ℕ) spec1 c W : sProp 𝕄)
            ∗ Pipeline.unscopedRest (Ix := Unit) (Name := ℕ) (U := UR sig nD τ) (Lvl := ℕ) spec1 c W) from
      Pipeline.unscopedBufs_split₀ cfgs 1 winFacts₀1.arr_unscoped c W,
    arrBufs1_eq, arrays1_eq c dat hq0 hq1,
    show dat.arrAt 0 0 = W main_v1 from hA 0, show dat.arrAt 1 0 = W main_v1 from hA 1, show dat.arrAt 2 0 = W main_v2 from hA 2]
  iintro ⟨⟨Ha, Hr⟩, Hrest⟩
  ihave Ha := (pointsTo_share (PosShare.mem_left_op_right fullShare)).1 $$ Ha
  icases Ha with ⟨Ha₁, Ha₂⟩
  isplitr [Hrest]
  · isplitl [Ha₁]; · iexact Ha₁
    isplitl [Ha₂]; · iexact Ha₂
    iexact Hr
  · iexact Hrest

/-- EXIT: the region's arrays at contents `G` and the unscoped rest at `W` are the core's unscoped buffers at any contents
    `W'` that has the arrays at `G` and agrees with `W` off them. -/
theorem unscopedBufs_of_arrays1 (c : Dev nD) (dat : Dat τ (Elt F) Unit ℕ (UR sig nD τ) ℕ cfg1 c)
    (hq0 : dat.q 0 = fullShare.left) (hq1 : dat.q 1 = fullShare.right)
    (W W' : (b : Ref sig .tc) → Buf (Elt F) ((c : Thread nD τ).loc b))
    (G : (w : Fin cfg1.W) → Buf (Elt F) ((cfg1.win w).arr.view.loc (c : Thread nD τ)))
    (hG : ∀ w, G w = W' (Pipeline.arrRef spec1 w))
    (hrest : ∀ b, b ∉ Finset.univ.image (Pipeline.arrRef spec1) → W' b = W b) :
    iprop(dat.arrays G ∗ Pipeline.unscopedRest (Ix := Unit) (Name := ℕ) (U := UR sig nD τ) (Lvl := ℕ) spec1 c W)
      ⊢ (unscopedBufs c W' : sProp 𝕄) := by
  -- both halves of a hold the same contents, so they join into the whole; off the arrays the two contents agree
  rw [show (unscopedBufs c W' : sProp 𝕄)
        = iprop((Pipeline.arrBufs (Ix := Unit) (Name := ℕ) (U := UR sig nD τ) (Lvl := ℕ) spec1 c W' : sProp 𝕄)
            ∗ Pipeline.unscopedRest (Ix := Unit) (Name := ℕ) (U := UR sig nD τ) (Lvl := ℕ) spec1 c W') from
      Pipeline.unscopedBufs_split₀ cfgs 1 winFacts₀1.arr_unscoped c W',
    arrBufs1_eq, arrays1_eq c dat hq0 hq1,
    show G 0 = W' main_v1 from hG 0, show G 1 = W' main_v1 from hG 1, show G 2 = W' main_v2 from hG 2,
    show (Pipeline.unscopedRest (Ix := Unit) (Name := ℕ) (U := UR sig nD τ) (Lvl := ℕ) spec1 c W' : sProp 𝕄)
        = Pipeline.unscopedRest (Ix := Unit) (Name := ℕ) (U := UR sig nD τ) (Lvl := ℕ) spec1 c W from by
      unfold Pipeline.unscopedRest
      exact bigSep_congr fun b hb => by rw [hrest b (Finset.mem_sdiff.mp hb).2]]
  iintro ⟨⟨Ha₁, Ha₂, Hr⟩, Hrest⟩
  ihave Ha := (pointsTo_share (PosShare.mem_left_op_right fullShare)).2 $$ [Ha₁ Ha₂]
  · isplitl [Ha₁] <;> iassumption
  isplitr [Hrest]
  · isplitl [Ha]; · iexact Ha
    iexact Hr
  · iexact Hrest

end Cert.KernelIdeal.Hand

end
-- ==== Proof.KI.Segs.lean ====
/-
  The whole program's run, from the two regions' proof data. What each region leaves in the buffers it writes is named:
  after the first region its two outputs hold the row of four sums and the map a of the launch arrays; the host reshape
  lays a out as two rows of 9216; after the second region its output holds the accumulator after the last grid point.
  Each region's record enters from "every unscoped buffer at the valuation before it" and leaves at the valuation after
  it; the first region's arrays are distinct buffers, the second's two input windows share a (held half and half).
-/
import proofs.«160447_j33363305955887_1_alg».proof.Proof.KI.Reg0
import proofs.«160447_j33363305955887_1_alg».proof.Proof.KI.Reg1
import proofs.«160447_j33363305955887_1_alg».proof.Proof.KI.Shares1
import proofs.«160447_j33363305955887_1_alg».proof.Proof.KI.RunCond

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions leave -/

/-- The first region is entered from the launch memory. -/
abbrev Ve0 : (c : Dev nD) → (b : Ref sig .tc) → Buf (Elt F) ((c : Thread nD τ).loc b) := fun c b => Gen.V0 m c b

/-- Every unscoped buffer after the first region: its two outputs at what its one write-back leaves. -/
def U1 (c : Dev nD) : Valuation τ sig (Elt F) :=
  Function.update (Function.update (Gen.V0 m c) main_v0_0 ((dat0 (Ve0 m) c).arrAt 2 cfg0.N)) main_v0_1 ((dat0 (Ve0 m) c).arrAt 3 cfg0.N)

/-- The regions' results up to the first region. -/
def outsA : Gen.Outs (F := F) := fun _ r c => U1 m c r

/-- The second region is entered after the reshape of a. -/
abbrev Ve2 : (c : Dev nD) → (b : Ref sig .tc) → Buf (Elt F) ((c : Thread nD τ).loc b) := fun c b => Gen.V2 m (outsA m) c b

/-- Every unscoped buffer after the second region: its output at the accumulator after the last point. -/
def U3 (c : Dev nD) : Valuation τ sig (Elt F) :=
  Function.update (Gen.V2 m (outsA m) c) main_v2 ((dat1 (Ve2 m) c).arrAt 2 cfg1.N)

/-- What the regions leave in the buffers they write, by the item they follow. -/
def outsOf : Gen.Outs (F := F) := fun J r c => match J with
  | 1 => U1 m c r
  | _ => U3 m c r

/-! ## The valuations between the items, with the regions' results named -/

theorem ne_v00_v01 : (Proc.devRef .tc main_v0_0 : DevRef τ sig) ≠ Proc.devRef .tc main_v0_1 := StableHlo.devRef_ne_of_ne (by decide)

theorem U1_v00 (c : Dev nD) : U1 m c main_v0_0 = (dat0 (Ve0 m) c).arrAt 2 cfg0.N := by
  unfold U1; rw [Function.update_of_ne ne_v00_v01, Function.update_self]

theorem U1_v01 (c : Dev nD) : U1 m c main_v0_1 = (dat0 (Ve0 m) c).arrAt 3 cfg0.N := by
  unfold U1; rw [Function.update_self]

/-- After the first region the valuation is the launch memory with the two outputs replaced. -/
theorem V1_outsA (c : Dev nD) : Gen.V1 m (outsA m) c = U1 m c := by
  show Function.update (Function.update (Gen.V0 m c) main_v0_0 (U1 m c main_v0_0)) main_v0_1 (U1 m c main_v0_1) = U1 m c
  rw [U1_v00, U1_v01]; rfl

theorem V1_outsOf (c : Dev nD) : Gen.V1 m (outsOf m) c = U1 m c := V1_outsA m c

theorem V2_outsOf (c : Dev nD) : Gen.V2 m (outsOf m) c = Gen.V2 m (outsA m) c := by
  show StableHlo.after hostOps1 (Gen.V1 m (outsOf m) c) = StableHlo.after hostOps1 (Gen.V1 m (outsA m) c)
  rw [V1_outsOf, V1_outsA]

theorem U3_v2 (c : Dev nD) : U3 m c main_v2 = (dat1 (Ve2 m) c).arrAt 2 cfg1.N := by
  unfold U3; rw [Function.update_self]

/-- After the second region the valuation is the one before it with the accumulator's array replaced. -/
theorem V3_outsOf (c : Dev nD) : Gen.V3 m (outsOf m) c = U3 m c := by
  show Function.update (Gen.V2 m (outsOf m) c) main_v2 (U3 m c main_v2) = U3 m c
  rw [V2_outsOf, U3_v2]; rfl

/-! ## The proof data family and what rides beside the buffers -/

/-- Every pipeline's proof data, each at its region's entry contents. -/
def pdats : (p : Fin 2) → (c : Dev nD) → Dat τ (Elt F) Unit ℕ (UR sig nD τ) ℕ (cfgs p) c
  | ⟨0, _⟩ => fun c => dat0 (Ve0 m) c
  | ⟨1, _⟩ => fun c => dat1 (Ve2 m) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every item: the core's generator register at some state and its debts, none. -/
abbrev R (c : Dev nD) : sProp 𝕄 := iprop((∃ r, prngReg c r) ∗ ∃ W, owes (c : Thread nD τ) (0 : CellTallies nD τ sig Unit) W)

/-- The thread state before an item whose entry valuation is `W`. -/
abbrev T (W : Dev nD → Valuation τ sig (Elt F)) (c : Dev nD) : sProp 𝕄 :=
  iprop(StableHlo.held (c : Thread nD τ) (Pipeline.ucRefs τ sig) (W c) ∗ R c)

end Cert.KernelIdeal.Hand

end
-- ==== Proof.KI.SegR0.lean ====
/-
  The first region as an item of the program's run: entered from every unscoped buffer at the launch memory, left with
  its two outputs replaced by what its write-back leaves. Its four arrays are distinct buffers, each held whole.
-/
import proofs.«160447_j33363305955887_1_alg».proof.Proof.KI.Segs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- After the first region each of its arrays holds what the valuation after it says. -/
theorem U1_arg0 (c : Dev nD) : U1 m c main_arg0 = Gen.V0 m c main_arg0 := by
  unfold U1
  rw [Function.update_of_ne (StableHlo.devRef_ne_of_ne (by decide)), Function.update_of_ne (StableHlo.devRef_ne_of_ne (by decide))]

theorem U1_arg1 (c : Dev nD) : U1 m c main_arg1 = Gen.V0 m c main_arg1 := by
  unfold U1
  rw [Function.update_of_ne (StableHlo.devRef_ne_of_ne (by decide)), Function.update_of_ne (StableHlo.devRef_ne_of_ne (by decide))]

theorem hF0 (c : Dev nD) (w : Fin cfg0.W) :
    (pdats m 0 c).arrAt w cfg0.N = Gen.V1 m (outsOf m) c (Pipeline.arrRef spec0 w) := by
  rw [V1_outsOf]
  match w with
  | ⟨0, _⟩ => exact ((dat0 (Ve0 m) c).arrAt_in 0 rfl _).trans (U1_arg0 m c).symm
  | ⟨1, _⟩ => exact ((dat0 (Ve0 m) c).arrAt_in 1 rfl _).trans (U1_arg1 m c).symm
  | ⟨2, _⟩ => exact (U1_v00 m c).symm
  | ⟨3, _⟩ => exact (U1_v01 m c).symm

/-- Every other unscoped buffer is as the region found it. -/
theorem hrest0 (c : Dev nD) : ∀ b, b ∉ Finset.univ.image (Pipeline.arrRef spec0) → Gen.V1 m (outsOf m) c b = Gen.V0 m c b :=
  fun b hb => Gen.V1_of m (outsOf m) c b (fun h => hb (by
    rcases List.mem_cons.mp h with rfl | h
    · exact Finset.mem_image.mpr ⟨2, Finset.mem_univ _, rfl⟩
    · rcases List.mem_cons.mp h with rfl | h
      · exact Finset.mem_image.mpr ⟨3, Finset.mem_univ _, rfl⟩
      · cases h))

set_option backward.isDefEq.respectTransparency.types false in
/-- The first region's record. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L lv 0 fun _ _ => rfl
  pre c := T (Gen.V0 m) c
  post c := T (Gen.V1 m (outsOf m)) c
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Ve0 m c) (fun b => Gen.V1 m (outsOf m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.SegR1.lean ====
/-
  The second region as an item of the program's run: entered from every unscoped buffer at the valuation after the host
  reshape, left with its output replaced by the accumulator after the last grid point. Its two input windows stand on the
  one array a: at entry the core's whole holding of a is cut in two half shares, at exit the halves are joined back.
-/
import proofs.«160447_j33363305955887_1_alg».proof.Proof.KI.Segs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

theorem U3_v1 (c : Dev nD) : U3 m c main_v1 = Gen.V2 m (outsA m) c main_v1 := by
  unfold U3
  rw [Function.update_of_ne (StableHlo.devRef_ne_of_ne (by decide))]

/-- After the second region each of its arrays holds what the valuation after it says. -/
theorem hF1 (c : Dev nD) (w : Fin cfg1.W) :
    (pdats m 1 c).arrAt w cfg1.N = Gen.V3 m (outsOf m) c (Pipeline.arrRef spec1 w) := by
  rw [V3_outsOf]
  match w with
  | ⟨0, _⟩ => exact ((dat1 (Ve2 m) c).arrAt_in 0 rfl _).trans (U3_v1 m c).symm
  | ⟨1, _⟩ => exact ((dat1 (Ve2 m) c).arrAt_in 1 rfl _).trans (U3_v1 m c).symm
  | ⟨2, _⟩ => exact (U3_v2 m c).symm

/-- Every other unscoped buffer is as the region found it. -/
theorem hrest1 (c : Dev nD) : ∀ b, b ∉ Finset.univ.image (Pipeline.arrRef spec1) → Gen.V3 m (outsOf m) c b = Gen.V2 m (outsA m) c b :=
  fun b hb => (Gen.V3_of m (outsOf m) c b (fun h => hb (by
    rcases List.mem_cons.mp h with rfl | h
    · exact Finset.mem_image.mpr ⟨2, Finset.mem_univ _, rfl⟩
    · cases h))).trans (congrFun (V2_outsOf m c) _)

set_option backward.isDefEq.respectTransparency.types false in
/-- The second region's record. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (Ve2 m) c).loose
  hwaits := Pipeline.hwaits_of_owed_zero _ _ _ _ L lv 1 fun _ _ => rfl
  pre c := T (Gen.V2 m (outsOf m)) c
  post c := T (Gen.V3 m (outsOf m)) c
  X c := iprop(∃ r, prngReg c r)
  Y c := iprop(∃ r, prngReg c r)
  Z c := Pipeline.unscopedRest (Ix := Unit) (Name := ℕ) (U := UR sig nD τ) (Lvl := ℕ) spec1 c (Ve2 m c)
  hentry c := by
    rw [Pipeline.ownSems0_none]
    have hsplit := arrays1_of_unscopedBufs c (pdats m 1 c) rfl rfl (Ve2 m c) fun _ => rfl
    rw [Pipeline.unscopedBufs_held] at hsplit
    show iprop((StableHlo.held (c : Thread nD τ) (Pipeline.ucRefs τ sig) (Gen.V2 m (outsOf m) c) ∗ R c) ∗ _ ∗ _) ⊢ _
    rw [V2_outsOf]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 c (pdats m 1 c) rfl rfl
      (Ve2 m c) (fun b => Gen.V3 m (outsOf m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Run.lean ====
/-
  The program's run, with nothing left as a hypothesis: the launch's ghost state is the pipelines' cells alone, each core
  starts with its generator register and no debts, the two regions' records are the ones proved from their bodies, and
  every final memory holds each unscoped buffer at the last valuation.
-/
import proofs.«160447_j33363305955887_1_alg».proof.Proof.KI.SegR0
import proofs.«160447_j33363305955887_1_alg».proof.Proof.KI.SegR1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

set_option backward.isDefEq.respectTransparency.types false in
/-- Every weakly fair execution of @main from memory `m` with zero counters ends, nothing faulting, with every unscoped
    buffer of every core at the last valuation. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = Gen.V4 m (outsOf m) c b) :=
  run_cond m (emb₁ : Emb _ 𝕄) () 𝒱₀ L lv (fun _ _ => rfl) ρ (outsOf m) (pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE2 := fun c => by
      iintro ⟨-, HO⟩
      iexact HO)
    (reg0 m) (fun c => .rfl) (fun c => .rfl) (reg1 m) (fun c => .rfl) (fun c => .rfl)

end Cert.KernelIdeal.Hand

end
-- ==== Proof.KI.Claims.lean ====
/-
  The frame: every run ends and leaves the two argument arrays as launched. No host operation writes an argument and no
  region's output is one, so the last valuation at an argument is the launch memory.
-/
import proofs.«160447_j33363305955887_1_alg».proof.Proof.KI.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-- An unscoped reference of the core is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem frame_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (Gen.V4_main_arg0 m (outsOf m) c),
     (h c _ (mem_uc main_arg1 (by decide))).trans (Gen.V4_main_arg1 m (outsOf m) c)⟩) (run_main m ρ)

end Cert.KernelIdeal.Hand

end
-- ==== Proof.KI.Tail.lean ====
/-
  The host operations after the second region, as one pure function of the row of four sums s = (den, pull, msum, nz) and
  of the one-by-one push sum p:   0.01 * ( 5 * den / max(1, msum)  +  pull / max(1, msum)  +  (p - nz) ).
-/
import proofs.«160447_j33363305955887_1_alg».proof.Proof.KI.Terms

noncomputable section

namespace Cert.KernelIdeal.Hand

open Idealize.ShloMosaic Idealize.SL.Sem Cert.KernelIdeal Cert.KernelIdeal.Gen

variable {F : FTy → Type} [FloatOps F]

/-- The loss from the four sums and the push sum. -/
def tailK (s : FVec F S1x4 .f32) (p : FVec F S1x1 .f32) : FVec F S_ .f32 :=
  have v4 : FVec F S_ .f32 := shapeCast S_ (extractStridedSlice S1x1 ![0, 0] s Facts₀.slices_S1x4_S1x1_0_0) Facts₀.shapeCasts_S1x1_S_
  have v6 : FVec F S_ .f32 := shapeCast S_ (extractStridedSlice S1x1 ![0, 1] s Facts₀.slices_S1x4_S1x1_0_1) Facts₀.shapeCasts_S1x1_S_
  have v8 : FVec F S_ .f32 := shapeCast S_ (extractStridedSlice S1x1 ![0, 2] s Facts₀.slices_S1x4_S1x1_0_2) Facts₀.shapeCasts_S1x1_S_
  have v10 : FVec F S_ .f32 := shapeCast S_ (extractStridedSlice S1x1 ![0, 3] s Facts₀.slices_S1x4_S1x1_0_3) Facts₀.shapeCasts_S1x1_S_
  have v11 : FVec F S_ .f32 := maximumf (constant S_ .f32 0x3F800000#32) v8
  have v12 : FVec F S_ .f32 := mulf (constant S_ .f32 0x40A00000#32) v4
  have v13 : FVec F S_ .f32 := Host.divf v12 v11
  have v14 : FVec F S_ .f32 := Host.divf v6 v11
  have v15 : FVec F S_ .f32 := shapeCast S_ p Facts₀.shapeCasts_S1x1_S_
  have v16 : FVec F S_ .f32 := subf v15 v10
  have v17 : FVec F S_ .f32 := addf v13 v14
  have v18 : FVec F S_ .f32 := addf v17 v16
  mulf (constant S_ .f32 0x3C23D70A#32) v18

/-- The map a laid out as two rows of 9216, as the host reshape between the regions does. -/
def aflat (x0 : Vec F S2x4x96x96 .f32) (x1 : Vec F S2x2x96x96 .f32) : FVec F S2x9216 .f32 :=
  shapeCast S2x9216 (amap x0 x1) Facts₀.shapeCasts_S2x1x96x96_S2x9216

/-- The kernel program's result as one function of the two argument arrays. -/
def resultK (x0 : Vec F S2x4x96x96 .f32) (x1 : Vec F S2x2x96x96 .f32) : FVec F S_ .f32 :=
  tailK (scal x0 x1) (pushAt (aflat x0 x1) 143 (by omega))

end Cert.KernelIdeal.Hand

end
-- ==== Proof.KI.KVal.lean ====
/-
  What the kernel program's result buffer holds at the end, as a function of the launch arrays: the last valuation read at
  the result, through the twenty host operations after the second region (the pure function `tailK`), the second region's
  accumulator after its last point, the reshape of a between the regions, and the first region's two outputs.
-/
import proofs.«160447_j33363305955887_1_alg».proof.Proof.KI.Segs
import proofs.«160447_j33363305955887_1_alg».proof.Proof.KI.Tail
import Idealize.ShloMosaic.Lib.StableHlo.Run

set_option maxRecDepth 16384

noncomputable section

namespace Cert.KernelIdeal.Hand

open Idealize.ShloMosaic Idealize.ShloMosaic.TcCoe
open Idealize.SL Idealize.SL.Sem
open Idealize.ShloMosaic.Pipeline (Dat)
open Cert.KernelIdeal Cert.KernelIdeal.Gen

variable {F : FTy → Type} [FloatOps F]

/-- The twenty host operations after the second region, from any valuation: the result buffer holds the loss formed
    from the row of four sums and the push sum that valuation has. -/
theorem after_tail (W : Valuation τ sig (Elt F)) :
    StableHlo.after hostOps2 W (Proc.devRef .tc main_v19) = tailK (W main_v0_0) (W main_v2) := by
  after_results
  rfl

theorem ne_v00_v2 : (Proc.devRef .tc main_v0_0 : DevRef τ sig) ≠ Proc.devRef .tc main_v2 := StableHlo.devRef_ne_of_ne (by decide)

variable (m : (ℓ : Loc nD τ sig) → Buf (Elt F) ℓ)

/-- The second region reads the map a of the launch arrays, laid out as two rows of 9216. -/
theorem Ve2_v1 (c : Dev nD) :
    Ve2 m c main_v1 = aflat (m ((c : Thread nD τ).loc main_arg0)) (m ((c : Thread nD τ).loc main_arg1)) := by
  show StableHlo.after hostOps1 (Gen.V1 m (outsA m) c) (Proc.devRef .tc main_v1) = _
  after_results
  rw [V1_outsA, U1_v01, final0_3]
  rfl

/-- The result buffer at the last valuation is the kernel program's function of the two launch arrays. -/
theorem V4_result (c : Dev nD) :
    Gen.V4 m (outsOf m) c main_v19 = resultK (m ((c : Thread nD τ).loc main_arg0)) (m ((c : Thread nD τ).loc main_arg1)) := by
  show StableHlo.after hostOps2 (Gen.V3 m (outsOf m) c) (Proc.devRef .tc main_v19) = _
  rw [after_tail, V3_outsOf]
  -- the accumulator's array: the second region's last point, entered at the reshaped map a
  have h2 : U3 m c main_v2 = pushAt (aflat (m ((c : Thread nD τ).loc main_arg0)) (m ((c : Thread nD τ).loc main_arg1))) 143 (by omega) := by
    rw [U3_v2, final1_2, Ve2_v1]
  -- the row of four sums: untouched by the second region and by the reshape, the first region's first output
  have h0 : U3 m c main_v0_0 = scal (m ((c : Thread nD τ).loc main_arg0)) (m ((c : Thread nD τ).loc main_arg1)) := by
    unfold U3
    rw [Function.update_of_ne ne_v00_v2, Gen.V2_of m (outsA m) c main_v0_0 (by decide), V1_outsA, U1_v00, final0_2]
  rw [h0, h2]
  rfl

end Cert.KernelIdeal.Hand

end
-- ==== Proof.KI.ValueRun.lean ====
/-
  The value: every run ends with the result buffer at the kernel program's function `resultK` of the two launch arrays,
  and the arguments as launched.
-/
import proofs.«160447_j33363305955887_1_alg».proof.Proof.KI.Claims
import proofs.«160447_j33363305955887_1_alg».proof.Proof.KI.KVal

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

theorem value_run : θ_run defs (onTc (τ := τ) (main (F := F))) ⟨m, fun _ => 0, ρ⟩ (fun r => ∀ c : Dev nD,
      r.2.mem ((c.tc : Thread nD τ).loc main_v19)
        = resultK (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v19 (by decide))).trans (V4_result m c),
     (h c _ (mem_uc main_arg0 (by decide))).trans (Gen.V4_main_arg0 m (outsOf m) c),
     (h c _ (mem_uc main_arg1 (by decide))).trans (Gen.V4_main_arg1 m (outsOf m) c)⟩) (run_main m ρ)

end Cert.KernelIdeal.Hand

end
-- ==== Proof.Val.Sums.lean ====
/-
  Sums over a whole array, taken one axis at a time, at the extended reals: a chain of single-axis sums that ends in a
  one-by-one block holds the sum over every index of the array, because addition of extended reals is commutative and
  associative (no finiteness is needed). Three chains, as the kernel spells them: over [2,1,96,96], over [2,4,96,96]
  and over [2,768,768].
-/
import proofs.«160447_j33363305955887_1_alg».proof.Proof.KI.Terms
import Idealize.ShloMosaic.PureOps.Ideal.Laws
import Idealize.ShloMosaic.Lib.Pipeline.Value
import Idealize.ShloMosaic.Lib.ValueLayout

noncomputable section

namespace Cert.KernelIdeal.Hand.Sums

open Idealize.ShloMosaic Idealize.SL.Sem Cert.KernelIdeal

section Whole

variable {s t : Shape} {φ : FTy}

/-- A sum taken over some axes, added up over every index that remains, is the sum over every index of the source:
    each source index lies in exactly one fibre of the map that forgets those axes. -/
theorem sum_reduce (axes : List (Fin s.rank)) (src : FVec Ideal s φ) (acc : BitVec φ.bits) (h : s.Reduces axes t)
    (hφ : FKind.Formats φ) (hacc : acc = FKind.add.neutral φ hφ) :
    ∑ j : t.Idx, multiReduction (F := Ideal) .add axes t src acc h hφ hacc j = ∑ i : s.Idx, src i := by
  show ∑ j : t.Idx, Ideal.reduceAdd h src j = ∑ i : s.Idx, src i
  unfold Ideal.reduceAdd
  exact Finset.sum_fiberwise Finset.univ (fun i => h.drop i) src

/-- The same elements under another shape have the same sum: the two index sets correspond one to one. -/
theorem sum_recast (x : FVec Ideal s φ) (h : s.ShapeCasts t) : ∑ j : t.Idx, shapeCast t x h j = ∑ k : s.Idx, x k :=
  Equiv.sum_comp (Shape.reshapeEquiv h) x

/-- A shape whose every axis has one coordinate has one index, so the entry read out of it is the sum over it. -/
theorem entry_eq_sum (ht : ∀ b, t.size b = 1) (pos : Fin t.rank → Nat) (x : FVec Ideal t φ) (hp : ∀ a, pos a < t.size a) :
    extractAt pos x hp = ∑ i : t.Idx, x i := by
  haveI : Subsingleton t.Idx :=
    ⟨fun p q => funext fun b => Fin.ext (by have := (p b).isLt; have := (q b).isLt; have := ht b; omega)⟩
  exact (Fintype.sum_subsingleton x _).symm

end Whole

/-- The sum over [2,1,96,96] taken lane axis first, then rows, then the unit axis, then the batch pair. -/
theorem chain_2x1x96x96 (v : FVec Ideal S2x1x96x96 .f32)
    (h3 : S2x1x96x96.Reduces [3] S2x1x96) (h2 : S2x1x96.Reduces [2] S2x1) (h1 : S2x1.Reduces [1] S2)
    (hc : S2.ShapeCasts S1x2) (h1' : S1x2.Reduces [1] S1) (hc' : S1.ShapeCasts S1x1)
    (hp : ∀ a, (![0, 0] : Fin 2 → Nat) a < S1x1.size a) :
    extractAt ![0, 0] (shapeCast S1x1 (multiReduction .add [1] S1 (shapeCast S1x2 (multiReduction .add [1] S2
      (multiReduction .add [2] S2x1 (multiReduction .add [3] S2x1x96 v 0x00000000#32 h3 (.inl rfl) rfl)
        0x00000000#32 h2 (.inl rfl) rfl) 0x00000000#32 h1 (.inl rfl) rfl) hc) 0x00000000#32 h1' (.inl rfl) rfl) hc') hp
      = ∑ i : S2x1x96x96.Idx, v i := by
  -- the one entry is the sum over the one-by-one block; each recast keeps the sum; each single-axis sum, added up
  -- over what remains, is the sum one rank higher
  refine (entry_eq_sum (by decide) _ _ _).trans ?_
  refine (sum_recast _ _).trans ?_
  refine (sum_reduce _ _ _ _ _ _).trans ?_
  refine (sum_recast _ _).trans ?_
  refine (sum_reduce _ _ _ _ _ _).trans ?_
  refine (sum_reduce _ _ _ _ _ _).trans ?_
  exact sum_reduce _ _ _ _ _ _

/-- The sum over [2,4,96,96] taken lane axis first, then rows, then channels, then the batch pair. -/
theorem chain_2x4x96x96 (v : FVec Ideal S2x4x96x96 .f32)
    (h3 : S2x4x96x96.Reduces [3] S2x4x96) (h2 : S2x4x96.Reduces [2] S2x4) (h1 : S2x4.Reduces [1] S2)
    (hc : S2.ShapeCasts S1x2) (h1' : S1x2.Reduces [1] S1) (hc' : S1.ShapeCasts S1x1)
    (hp : ∀ a, (![0, 0] : Fin 2 → Nat) a < S1x1.size a) :
    extractAt ![0, 0] (shapeCast S1x1 (multiReduction .add [1] S1 (shapeCast S1x2 (multiReduction .add [1] S2
      (multiReduction .add [2] S2x4 (multiReduction .add [3] S2x4x96 v 0x00000000#32 h3 (.inl rfl) rfl)
        0x00000000#32 h2 (.inl rfl) rfl) 0x00000000#32 h1 (.inl rfl) rfl) hc) 0x00000000#32 h1' (.inl rfl) rfl) hc') hp
      = ∑ i : S2x4x96x96.Idx, v i := by
  -- the one entry is the sum over the one-by-one block; each recast keeps the sum; each single-axis sum, added up
  -- over what remains, is the sum one rank higher
  refine (entry_eq_sum (by decide) _ _ _).trans ?_
  refine (sum_recast _ _).trans ?_
  refine (sum_reduce _ _ _ _ _ _).trans ?_
  refine (sum_recast _ _).trans ?_
  refine (sum_reduce _ _ _ _ _ _).trans ?_
  refine (sum_reduce _ _ _ _ _ _).trans ?_
  exact sum_reduce _ _ _ _ _ _

/-- The sum over [2,768,768] taken last axis first, then the middle axis, then the batch pair. -/
theorem chain_2x768x768 (v : FVec Ideal S2x768x768 .f32)
    (h2 : S2x768x768.Reduces [2] S2x768) (h1 : S2x768.Reduces [1] S2)
    (hc : S2.ShapeCasts S1x2) (h1' : S1x2.Reduces [1] S1) (hc' : S1.ShapeCasts S1x1)
    (hp : ∀ a, (![0, 0] : Fin 2 → Nat) a < S1x1.size a) :
    extractAt ![0, 0] (shapeCast S1x1 (multiReduction .add [1] S1 (shapeCast S1x2 (multiReduction .add [1] S2
      (multiReduction .add [2] S2x768 v 0x00000000#32 h2 (.inl rfl) rfl) 0x00000000#32 h1 (.inl rfl) rfl) hc)
        0x00000000#32 h1' (.inl rfl) rfl) hc') hp
      = ∑ i : S2x768x768.Idx, v i := by
  -- the one entry is the sum over the one-by-one block; each recast keeps the sum; each single-axis sum, added up
  -- over what remains, is the sum one rank higher
  refine (entry_eq_sum (by decide) _ _ _).trans ?_
  refine (sum_recast _ _).trans ?_
  refine (sum_reduce _ _ _ _ _ _).trans ?_
  refine (sum_recast _ _).trans ?_
  refine (sum_reduce _ _ _ _ _ _).trans ?_
  exact sum_reduce _ _ _ _ _ _

/-- Entry `k` of the row of four one-by-one blocks laid side by side is block `k`'s one entry. -/
theorem concat4_apply (p0 p1 p2 p3 : FVec Ideal S1x1 .f32)
    (h : Shape.Concatenates [S1x1, S1x1, S1x1, S1x1] S1x4 1) (k : Fin 4) :
    concatenate S1x4 1 [⟨S1x1, p0⟩, ⟨S1x1, p1⟩, ⟨S1x1, p2⟩, ⟨S1x1, p3⟩] h (ValueIdx.ix2 (n0 := 1) (n1 := 4) 0 k)
      = (match k with | 0 => p0 | 1 => p1 | 2 => p2 | 3 => p3) (ValueIdx.ix2 (n0 := 1) (n1 := 1) 0 0) := by
  -- the four blocks as a family over the column; each has one column, so column `n` of the row falls in block `n`
  let f : Fin 4 → (S1x1.Idx → Ideal .f32) := fun n => match n with | 0 => p0 | 1 => p1 | 2 => p2 | 3 => p3
  have key : ∀ n : Fin 4,
      concatenate S1x4 1 [⟨S1x1, p0⟩, ⟨S1x1, p1⟩, ⟨S1x1, p2⟩, ⟨S1x1, p3⟩] h (ValueIdx.ix2 (n0 := 1) (n1 := 4) 0 n)
        = f n (ValueIdx.ix2 (n0 := 1) (n1 := 1) 0 0) := fun n =>
    concatenate_ofFn_unit_apply (t := S1x4) (s₁ := S1x1) 1 f h rfl rfl _ n rfl _
      (fun b hb => match b, hb with
        | ⟨0, _⟩, _ => rfl
        | ⟨1, _⟩, hb => absurd rfl hb)
  match k with
  | 0 => exact key 0
  | 1 => exact key 1
  | 2 => exact key 2
  | 3 => exact key 3

end Cert.KernelIdeal.Hand.Sums

end
-- ==== Proof.Val.RefImports.lean ====
/-
  The reference program's run and its read-at-an-index lemmas, gathered under one name for the modules that
  state what the reference computes.
-/
import proofs.«160447_j33363305955887_1_alg».proof.Proof.Gen.ReferenceIdeal.Run
import proofs.«160447_j33363305955887_1_alg».proof.Proof.Gen.ReferenceIdeal.Read
-- ==== Proof.Val.Pointwise.lean ====
/-
  Entry by entry, at the extended reals, the kernel's first region computes what the reference's host operations compute:
  the mask plane, the density (the root of the sum of the four squared tags), the normalised masked tags, their masked
  quarter-sum (the mean tag), the deviation from it, and the product a = mean * mask. The kernel sums the four channels
  with a single-axis vector sum and re-lays the result; the reference with a host sum and a broadcast: the same four-term
  sum. A flag 'not equal to zero' turned into 0 or 1 reads the same whether it is an ordered or an unordered compare
  (an extended real is never a NaN) and whether the bit is widened and converted or converted at once.
-/
import proofs.«160447_j33363305955887_1_alg».proof.Proof.KI.Terms
import proofs.«160447_j33363305955887_1_alg».proof.Proof.Val.RefImports
import Idealize.ShloMosaic.PureOps.Ideal.Laws
import Idealize.ShloMosaic.Lib.Pipeline.Value
import Idealize.ShloMosaic.Lib.ValueLayout
import Idealize.ShloMosaic.Lib.KernelVsHost

noncomputable section

namespace Cert.KernelIdeal.Hand.Pointwise

open Idealize.ShloMosaic Idealize.SL.Sem Cert.KernelIdeal Cert.KernelIdeal.Gen Cert.KernelIdeal.Hand
open Cert.ReferenceIdeal.Read (val_main_v0 val_main_v8 val_main_v29 val_main_v34 val_main_v36)

variable (x0 : FVec Ideal S2x4x96x96 .f32) (x1 : FVec Ideal S2x2x96x96 .f32)

open Idealize.ShloMosaic.ValueIdx
open Cert.ReferenceIdeal.Read (val_main_v0_apply val_main_v5 val_main_v5_apply val_main_cst_1 val_main_cst_1_apply
  val_main_v6 val_main_v6_apply idx_main_v6 val_main_v7 val_main_v7_apply idx_main_v7 val_main_v8_apply
  val_main_cst_7 val_main_cst_7_apply val_main_v24 val_main_v24_apply idx_main_v24 val_main_v25 val_main_v25_apply
  val_main_v26 val_main_v26_apply idx_main_v26 val_main_v27 val_main_v27_apply val_main_v28 val_main_v28_apply idx_main_v28
  val_main_v29_apply val_main_cst_8 val_main_cst_8_apply val_main_v30 val_main_v30_apply idx_main_v30
  val_main_v31 val_main_v31_apply idx_main_v31 val_main_cst_9 val_main_cst_9_apply val_main_v32 val_main_v32_apply idx_main_v32
  val_main_v33 val_main_v33_apply val_main_v34_apply val_main_v35 val_main_v35_apply idx_main_v35 val_main_v36_apply)

/-! ## The two layout steps read at an entry (b, c, h, w) -/

/-- The sum over the four channels, re-laid as a one-channel plane, read at an entry: the four-term sum down the
    channel axis at the same batch and pixel. -/
theorem chanSum_at (v : FVec Ideal S2x4x96x96 .f32) (b : Fin 2) (c : Fin 1) (h : Fin 96) (w : Fin 96) :
    (shapeCast S2x1x96x96 (multiReduction .add [1] S2x96x96 v 0x00000000#32 reduces_S2x4x96x96_S2x96x96 (.inl rfl) rfl)
        shapeCasts_S2x96x96_S2x1x96x96 : FVec Ideal S2x1x96x96 .f32) (ix4 b c h w)
      = ∑ k : Fin 4, v (ix4 b k h w) := by
  refine (shapeCast_apply _ shapeCasts_S2x96x96_S2x1x96x96 (ix4 b c h w) (ix3 b h w) ?_).trans ?_
  · -- the two row-major positions agree: the channel coordinate of a one-channel plane is 0
    rw [Shape.rowMajor_val_three, Shape.rowMajor_val_four]
    show ((b.val * 96 + h.val) * 96 + w.val) = (((b.val * 1 + c.val) * 96 + h.val) * 96 + w.val)
    have := c.isLt
    omega
  · -- the single-axis sum is the sum over the channel coordinate, inserted at axis 1
    refine (Ideal.multiReduction_add_single v 0x00000000#32 reduces_S2x4x96x96_S2x96x96 (.inl rfl) rfl (ix3 b h w)).trans ?_
    refine Finset.sum_congr rfl fun k _ => congrArg v ?_
    funext a
    refine Fin.ext ?_
    match a with
    | ⟨0, _⟩ => rfl
    | ⟨1, _⟩ => rfl
    | ⟨2, _⟩ => rfl
    | ⟨3, _⟩ => rfl

/-- A one-channel plane repeated over the four channels, read at an entry: the plane at the same batch and pixel. -/
theorem repeatChan_at (v : FVec Ideal S2x1x96x96 .f32) (b : Fin 2) (k : Fin 4) (h : Fin 96) (w : Fin 96) :
    (broadcastTo S2x4x96x96 v broadcasts_S2x1x96x96_S2x4x96x96 : FVec Ideal S2x4x96x96 .f32) (ix4 b k h w)
      = v (ix4 b (0 : Fin 1) h w) :=
  broadcastTo_apply v broadcasts_S2x1x96x96_S2x4x96x96 (ix4 b k h w) (ix4 b (0 : Fin 1) h w) (fun a => match a with
    | ⟨0, _⟩ => by show b.val = if (2 : Nat) = 1 then 0 else b.val; rw [if_neg (by decide)]
    | ⟨1, _⟩ => by show 0 = if (1 : Nat) = 1 then 0 else k.val; rw [if_pos rfl]
    | ⟨2, _⟩ => by show h.val = if (96 : Nat) = 1 then 0 else h.val; rw [if_neg (by decide)]
    | ⟨3, _⟩ => by show w.val = if (96 : Nat) = 1 then 0 else w.val; rw [if_neg (by decide)])

/-! ## The reference's index functions, by coordinates -/

/-- The reference's sum of squares, re-broadcast to a one-channel plane: at entry (b, c, h, w) its k-th term is the
    operand at (b, k, h, w). -/
theorem refSumIdx6 (b : Fin 2) (c : Fin 1) (h : Fin 96) (w : Fin 96) (k : Fin 4) :
    idx_main_v6 (idx_main_v7 (ix4 b c h w)) k = ix4 b k h w := by
  funext a; refine Fin.ext ?_
  match a with
  | ⟨0, _⟩ => rfl
  | ⟨1, _⟩ => rfl
  | ⟨2, _⟩ => rfl
  | ⟨3, _⟩ => rfl

/-- The same for the reference's sum of the normalised tags. -/
theorem refSumIdx30 (b : Fin 2) (c : Fin 1) (h : Fin 96) (w : Fin 96) (k : Fin 4) :
    idx_main_v30 (idx_main_v31 (ix4 b c h w)) k = ix4 b k h w := by
  funext a; refine Fin.ext ?_
  match a with
  | ⟨0, _⟩ => rfl
  | ⟨1, _⟩ => rfl
  | ⟨2, _⟩ => rfl
  | ⟨3, _⟩ => rfl

/-- The reference's repeat of the shifted density over the channels reads the plane at the same batch and pixel. -/
theorem refRepIdx26 (b : Fin 2) (k : Fin 4) (h : Fin 96) (w : Fin 96) :
    idx_main_v26 (ix4 b k h w) = ix4 b (0 : Fin 1) h w := by
  funext a; refine Fin.ext ?_
  match a with
  | ⟨0, _⟩ => rfl
  | ⟨1, _⟩ => rfl
  | ⟨2, _⟩ => rfl
  | ⟨3, _⟩ => rfl

/-- The same for its repeat of the mask. -/
theorem refRepIdx28 (b : Fin 2) (k : Fin 4) (h : Fin 96) (w : Fin 96) :
    idx_main_v28 (ix4 b k h w) = ix4 b (0 : Fin 1) h w := by
  funext a; refine Fin.ext ?_
  match a with
  | ⟨0, _⟩ => rfl
  | ⟨1, _⟩ => rfl
  | ⟨2, _⟩ => rfl
  | ⟨3, _⟩ => rfl

/-- The same for its repeat of the mean tag. -/
theorem refRepIdx35 (b : Fin 2) (k : Fin 4) (h : Fin 96) (w : Fin 96) :
    idx_main_v35 (ix4 b k h w) = ix4 b (0 : Fin 1) h w := by
  funext a; refine Fin.ext ?_
  match a with
  | ⟨0, _⟩ => rfl
  | ⟨1, _⟩ => rfl
  | ⟨2, _⟩ => rfl
  | ⟨3, _⟩ => rfl

/-! ## The seven equalities -/

/-- The mask plane: channel 1 of the label, on both sides the same slice. -/
theorem mask_eq : k0_pay3 (F := Ideal) x1 = val_main_v0 (F := Ideal) x1 := by
  rfl

/-- The density: the square root of the sum over the four channels of the squared tags. -/
theorem dens_eq : k0_pay4 (F := Ideal) x0 = val_main_v8 (F := Ideal) x0 := by
  funext i
  obtain ⟨b, c, h, w, rfl⟩ : ∃ (b : Fin 2) (c : Fin 1) (h : Fin 96) (w : Fin 96), i = ix4 b c h w :=
    ⟨i 0, i 1, i 2, i 3, eq_ix4 i⟩
  rw [val_main_v8_apply, val_main_v7_apply, val_main_v6_apply, val_main_cst_1_apply]
  simp only [refSumIdx6, val_main_v5_apply]
  refine (congrArg Ideal.sqrt (chanSum_at (mulf x0 x0) b c h w)).trans ?_
  rw [Ideal.hostUnary_sqrt_def, Ideal.ofBits_def, Ideal.ofBits_zero_f32, zero_add]
  rfl

/-- The normalised masked tags: x / (density + 1e-4) * mask, per channel. -/
theorem div_eq : k0_pay6 (F := Ideal) x0 x1 = val_main_v29 (F := Ideal) x0 x1 := by
  funext i
  obtain ⟨b, k, h, w, rfl⟩ : ∃ (b : Fin 2) (k : Fin 4) (h : Fin 96) (w : Fin 96), i = ix4 b k h w :=
    ⟨i 0, i 1, i 2, i 3, eq_ix4 i⟩
  rw [val_main_v29_apply, val_main_v27_apply, val_main_v26_apply, val_main_v25_apply, val_main_v24_apply,
    val_main_cst_7_apply, val_main_v28_apply, refRepIdx26, refRepIdx28]
  unfold k0_pay6
  rw [dens_eq, mask_eq]
  simp only [mulf_apply, divf_apply, addf_apply, broadcast_apply, repeatChan_at]
  rfl

/-- The mean tag: the four normalised tags summed, times a quarter, times the mask. -/
theorem aver_eq : k0_pay7 (F := Ideal) x0 x1 = val_main_v34 (F := Ideal) x0 x1 := by
  funext i
  obtain ⟨b, c, h, w, rfl⟩ : ∃ (b : Fin 2) (c : Fin 1) (h : Fin 96) (w : Fin 96), i = ix4 b c h w :=
    ⟨i 0, i 1, i 2, i 3, eq_ix4 i⟩
  rw [val_main_v34_apply, val_main_v33_apply, val_main_v32_apply, val_main_cst_9_apply, val_main_v31_apply,
    val_main_v30_apply, val_main_cst_8_apply]
  simp only [refSumIdx30]
  refine (congrArg (fun t => t * Ideal.ofBits .f32 0x3E800000#32 * k0_pay3 (F := Ideal) x1 (ix4 b c h w))
    (chanSum_at (k0_pay6 (F := Ideal) x0 x1) b c h w)).trans ?_
  rw [div_eq, mask_eq, Ideal.ofBits_def, Ideal.ofBits_zero_f32, zero_add]
  rfl

/-- The deviation of each normalised tag from the mean tag. -/
theorem dev_eq : k0_pay8 (F := Ideal) x0 x1 = val_main_v36 (F := Ideal) x0 x1 := by
  funext i
  obtain ⟨b, k, h, w, rfl⟩ : ∃ (b : Fin 2) (k : Fin 4) (h : Fin 96) (w : Fin 96), i = ix4 b k h w :=
    ⟨i 0, i 1, i 2, i 3, eq_ix4 i⟩
  rw [val_main_v36_apply, val_main_v35_apply, refRepIdx35]
  unfold k0_pay8
  rw [div_eq, aver_eq]
  simp only [subf_apply, repeatChan_at]
  rfl

/-- The map a = mean tag * mask, as the kernel stores it. -/
theorem amap_eq : amap (F := Ideal) x0 x1 = (mulf (val_main_v34 (F := Ideal) x0 x1) (val_main_v0 (F := Ideal) x1) : FVec Ideal S2x1x96x96 .f32) := by
  unfold amap k0_pay1
  rw [aver_eq, mask_eq]

/-- The 0/1 flag 'a is not zero': ordered or unordered compare, widened-then-converted or converted at once. -/
theorem nzflag_eq {s : Shape} (a z : FVec Ideal s .f32) (h : 1 < 32) :
    (sitofp .f32 (extui 32 (cmpf .one a z) h) : FVec Ideal s .f32) = uitofp .f32 (cmpf .une a z) := by
  have e : (cmpf .one a z : IVec s 1) = cmpf .une a z := rfl
  rw [e]
  exact sitofp_extui_eq_uitofp _ h

end Cert.KernelIdeal.Hand.Pointwise

end
-- ==== Proof.Val.Scalars.lean ====
/-
  The four whole-array sums of the first region are the reference's four host sums: the masked smooth-L1 density loss,
  the squared deviation of the normalised tags from their mean, the count of masked pixels and the count of pixels where
  a = mean * mask is not zero. On each side the summand is the same function of the index (entry by entry), and a sum
  taken axis by axis is the sum over all indices.
-/
import proofs.«160447_j33363305955887_1_alg».proof.Proof.Val.Sums
import proofs.«160447_j33363305955887_1_alg».proof.Proof.Val.Pointwise

noncomputable section

namespace Cert.KernelIdeal.Hand.Scalars

open Idealize.ShloMosaic Idealize.SL.Sem Cert.KernelIdeal Cert.KernelIdeal.Gen Cert.KernelIdeal.Hand
open Cert.ReferenceIdeal.Read (val_main_v3 val_main_v21 val_main_v38 val_main_v63)
open Cert.ReferenceIdeal.Read

/-- Re-laying an array in row-major order permutes its entries: the sum over all indices is unchanged. -/
theorem sum_shapeCast {s t : Shape} (v : FVec Ideal s .f32) (h : s.ShapeCasts t) :
    ∑ j : t.Idx, shapeCast t v h j = ∑ i : s.Idx, v i :=
  Fintype.sum_equiv (Shape.reshapeEquiv h) _ _ (fun _ => rfl)

/-- The last of four one-by-one blocks laid side by side sits at column 3. -/
theorem concat4_last (p0 p1 p2 p3 : FVec Ideal S1x1 .f32) (h : Shape.Concatenates [S1x1, S1x1, S1x1, S1x1] S1x4 1) :
    concatenate S1x4 1 [⟨S1x1, p0⟩, ⟨S1x1, p1⟩, ⟨S1x1, p2⟩, ⟨S1x1, p3⟩] h (ValueIdx.ix2 (n0 := 1) (n1 := 4) 0 3)
      = p3 (ValueIdx.ix2 (n0 := 1) (n1 := 1) 0 0) :=
  Sums.concat4_apply p0 p1 p2 p3 h 3

variable (x0 : FVec Ideal S2x4x96x96 .f32) (x1 : FVec Ideal S2x2x96x96 .f32)

/-- Entry 0: the sum over batch and pixel of mask * smoothL1(|density - target|). -/
theorem den_eq : scal (F := Ideal) x0 x1 (ValueIdx.ix2 (n0 := 1) (n1 := 4) 0 0) = val_main_v21 (F := Ideal) x0 x1 ValueIdx.ix0 := by
  unfold scal k0_pay2
  refine (Sums.concat4_apply _ _ _ _ _ 0).trans ?_
  unfold k0_pay5
  refine (Sums.chain_2x1x96x96 _ _ _ _ _ _ _ _).trans ?_
  rw [val_main_v21_apply, val_main_cst_5_apply]
  refine Eq.trans ?_ (congrArg (· + _) Ideal.ofBits_zero_f32.symm)
  rw [zero_add]
  refine Finset.sum_congr rfl fun i _ => ?_
  rw [Pointwise.mask_eq, Pointwise.dens_eq]
  simp only [val_main_v20_apply, val_main_v19_apply, val_main_v13_apply, val_main_v16_apply, val_main_v15_apply,
    val_main_v18_apply, val_main_v12_apply, val_main_v14_apply, val_main_v17_apply, val_main_cst_2_apply,
    val_main_cst_3_apply, val_main_cst_4_apply, val_main_v11_apply, val_main_v10_apply]
  rfl

/-- Entry 1: the sum over batch, channel and pixel of the squared deviation from the mean tag. -/
theorem pull_eq : scal (F := Ideal) x0 x1 (ValueIdx.ix2 (n0 := 1) (n1 := 4) 0 1) = val_main_v38 (F := Ideal) x0 x1 ValueIdx.ix0 := by
  unfold scal k0_pay2
  refine (Sums.concat4_apply _ _ _ _ _ 1).trans ?_
  refine (Sums.chain_2x4x96x96 _ _ _ _ _ _ _ _).trans ?_
  rw [val_main_v38_apply, val_main_cst_10_apply]
  refine Eq.trans ?_ (congrArg (· + _) Ideal.ofBits_zero_f32.symm)
  rw [zero_add]
  refine Finset.sum_congr rfl fun i _ => ?_
  rw [Pointwise.dev_eq, val_main_v37_apply]
  rfl

/-- Entry 2: the sum of the mask plane. -/
theorem msum_eq : scal (F := Ideal) x0 x1 (ValueIdx.ix2 (n0 := 1) (n1 := 4) 0 2) = val_main_v3 (F := Ideal) x1 ValueIdx.ix0 := by
  unfold scal k0_pay2
  refine (Sums.concat4_apply _ _ _ _ _ 2).trans ?_
  refine (Sums.chain_2x1x96x96 _ _ _ _ _ _ _ _).trans ?_
  rw [val_main_v3_apply, val_main_cst_apply]
  refine Eq.trans ?_ (congrArg (· + _) Ideal.ofBits_zero_f32.symm)
  rw [zero_add]
  unfold val_main_v2
  rw [sum_shapeCast, Pointwise.mask_eq]
  rfl

/-- Entry 3: the number of positions where a is not zero. -/
theorem nz_eq : scal (F := Ideal) x0 x1 (ValueIdx.ix2 (n0 := 1) (n1 := 4) 0 3) = val_main_v63 (F := Ideal) x0 x1 ValueIdx.ix0 := by
  unfold scal k0_pay2
  refine (concat4_last _ _ _ _ _).trans ?_
  refine (ValueIdx.broadcast_apply _ _).trans ?_
  rw [Pointwise.nzflag_eq]
  refine (Sums.chain_2x1x96x96 _ _ _ _ _ _ _ _).trans ?_
  rw [val_main_v63_apply, val_main_cst_14_apply]
  refine Eq.trans ?_ (congrArg (· + _) Ideal.ofBits_zero_f32.symm)
  rw [zero_add]
  have ha : k0_pay1 (k0_pay3 x1) (k0_pay7 (F := Ideal) x0 x1)
      = (mulf (val_main_v34 (F := Ideal) x0 x1) (val_main_v0 (F := Ideal) x1) : FVec Ideal S2x1x96x96 .f32) :=
    Pointwise.amap_eq x0 x1
  rw [ha]
  have h1 : S2x1x96x96.ShapeCasts S2x96x96 := by decide
  have h2 : S2x96x96.ShapeCasts S2x9216 := by decide
  refine (sum_shapeCast _ h1).symm.trans ((sum_shapeCast _ h2).symm.trans ?_)
  refine Finset.sum_congr rfl fun j _ => ?_
  rw [val_main_v46_apply, val_main_v45_apply, val_main_v44_apply, val_main_cst_11_apply]
  unfold val_main_v43 val_main_v42 val_main_v40 val_main_v41
  rfl

end Cert.KernelIdeal.Hand.Scalars

end
-- ==== Proof.Val.Push.lean ====
/-
  The all-pairs term. The reference sums over batch b and all pairs (p, q) of the 9216 positions the product
  nz_p nz_q max(1 - |a_p - a_q|, 0). The second region walks the 12 x 12 grid of pairs (i, j) of 768-wide column tiles of a
  and adds, point by point into an accumulator started at zero, the same summand over b and the pairs inside the tile
  pair. Every pair (p, q) lies in exactly one tile pair (p / 768, q / 768), so the accumulator after the last point is the
  reference's sum: a regrouping of one finite sum of extended reals.
-/
import proofs.«160447_j33363305955887_1_alg».proof.Proof.Val.Sums
import proofs.«160447_j33363305955887_1_alg».proof.Proof.Val.Pointwise

noncomputable section

open scoped BigOperators

namespace Cert.KernelIdeal.Hand.Push

open Idealize.ShloMosaic Idealize.SL.Sem Cert.KernelIdeal Cert.KernelIdeal.Gen Cert.KernelIdeal.Hand
open Idealize.ShloMosaic.ValueIdx
open Cert.ReferenceIdeal.Read (val_main_v62)

/-! ## Sums by coordinates -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A position below 9216 is a tile below 12 and a place below 768 inside the tile: position = 768 * tile + place. -/
def tileSplit : Fin 12 × Fin 768 ≃ Fin 9216 where
  toFun ip := ⟨ip.1.val * 768 + ip.2.val, by have h1 := ip.1.isLt; have h2 := ip.2.isLt; omega⟩
  invFun P := (⟨P.val / 768, by have h := P.isLt; omega⟩, ⟨P.val % 768, by omega⟩)
  left_inv ip := by
    have h1 := ip.1.isLt; have h2 := ip.2.isLt
    refine Prod.ext (Fin.ext ?_) (Fin.ext ?_)
    · show (ip.1.val * 768 + ip.2.val) / 768 = ip.1.val; omega
    · show (ip.1.val * 768 + ip.2.val) % 768 = ip.2.val; omega
  right_inv P := by
    refine Fin.ext ?_
    show P.val / 768 * 768 + P.val % 768 = P.val; omega

/-- A sum over the 9216 positions is the sum over the tiles of the sums over the places in a tile. -/
theorem sum_tiles {M : Type*} [AddCommMonoid M] (f : Fin 9216 → M) :
    ∑ P, f P = ∑ i : Fin 12, ∑ p : Fin 768, f (tileSplit (i, p)) := by
  rw [← Equiv.sum_comp tileSplit f, Fintype.sum_prod_type]

/-- A grid point below 144 is a row below 12 and a column below 12 of the grid: point = 12 * row + column. -/
def gridSplit : Fin 12 × Fin 12 ≃ Fin 144 where
  toFun ij := ⟨ij.1.val * 12 + ij.2.val, by have h1 := ij.1.isLt; have h2 := ij.2.isLt; omega⟩
  invFun t := (⟨t.val / 12, by have h := t.isLt; omega⟩, ⟨t.val % 12, by omega⟩)
  left_inv ij := by
    have h1 := ij.1.isLt; have h2 := ij.2.isLt
    refine Prod.ext (Fin.ext ?_) (Fin.ext ?_)
    · show (ij.1.val * 12 + ij.2.val) / 12 = ij.1.val; omega
    · show (ij.1.val * 12 + ij.2.val) % 12 = ij.2.val; omega
  right_inv t := by
    refine Fin.ext ?_
    show t.val / 12 * 12 + t.val % 12 = t.val; omega

/-! ## The pairwise term -/

/-- The word of all zero bits is the extended real zero. -/
theorem zero_word : Ideal.ofBits .f32 0x00000000#32 = (0 : EReal) := by simp [Ideal.ofBits, Ideal.ieee]

/-- The flag 'x is not zero' as the number 0 or 1. -/
def nz (x : Ideal .f32) : Ideal .f32 :=
  FloatOps.uitofp .f32 (FloatOps.cmpf .une x (FloatOps.ofBits .f32 0x00000000#32))

/-- The pairwise term of two entries x, y: nz x * nz y * max (1 - |x - y|, 0). -/
def pairTerm (x y : Ideal .f32) : Ideal .f32 :=
  nz x * nz y * max (FloatOps.ofBits .f32 0x3F800000#32 - FloatOps.absf (x - y)) (FloatOps.ofBits .f32 0x00000000#32)

/-! ## One tile pair's sum, as the kernel takes it -/

/-- A two-row block laid along the middle axis of the pair cube reads, at (b, p, q), its entry (b, p). -/
theorem along_mid {α : Type} (v : S2x768.Idx → α) (h1 : S2x768.ShapeCasts S2x768x1) (h2 : S2x768x1.Broadcasts S2x768x768)
    (b : Fin 2) (p q : Fin 768) :
    broadcastTo S2x768x768 (shapeCast S2x768x1 v h1) h2 (ix3 b p q) = v (ix2 b p) := by
  refine (broadcastTo_apply _ h2 (ix3 b p q) (ix3 b p (0 : Fin 1)) (fun a => match a with
    | ⟨0, _⟩ => by show b.val = if (2 : Nat) = 1 then 0 else b.val; rw [if_neg (by decide)]
    | ⟨1, _⟩ => by show p.val = if (768 : Nat) = 1 then 0 else p.val; rw [if_neg (by decide)]
    | ⟨2, _⟩ => by show 0 = if (1 : Nat) = 1 then 0 else q.val; rw [if_pos rfl])).trans ?_
  refine shapeCast_apply v h1 (ix3 b p (0 : Fin 1)) (ix2 b p) ?_
  rw [Shape.rowMajor_val_two, Shape.rowMajor_val_three]
  show b.val * 768 + p.val = (b.val * 768 + p.val) * 1 + 0
  omega

/-- A two-row block laid along the last axis of the pair cube reads, at (b, p, q), its entry (b, q). -/
theorem along_last {α : Type} (v : S2x768.Idx → α) (h1 : S2x768.ShapeCasts S2x1x768) (h2 : S2x1x768.Broadcasts S2x768x768)
    (b : Fin 2) (p q : Fin 768) :
    broadcastTo S2x768x768 (shapeCast S2x1x768 v h1) h2 (ix3 b p q) = v (ix2 b q) := by
  refine (broadcastTo_apply _ h2 (ix3 b p q) (ix3 b (0 : Fin 1) q) (fun a => match a with
    | ⟨0, _⟩ => by show b.val = if (2 : Nat) = 1 then 0 else b.val; rw [if_neg (by decide)]
    | ⟨1, _⟩ => by show 0 = if (1 : Nat) = 1 then 0 else p.val; rw [if_pos rfl]
    | ⟨2, _⟩ => by show q.val = if (768 : Nat) = 1 then 0 else q.val; rw [if_neg (by decide)])).trans ?_
  refine shapeCast_apply v h1 (ix3 b (0 : Fin 1) q) (ix2 b q) ?_
  rw [Shape.rowMajor_val_two, Shape.rowMajor_val_three]
  show b.val * 768 + q.val = (b.val * 1 + 0) * 768 + q.val
  omega

/-- The kernel's flag (ordered compare, widened, converted) at an index is the flag of the entry. -/
theorem flag_at {s : Shape} (v : FVec Ideal s .f32) (h : 1 < 32) (i : s.Idx) :
    (sitofp .f32 (extui 32 (cmpf .one v (broadcast s (Scalar.ofBits (F := Ideal) .f32 0x00000000#32))) h) : FVec Ideal s .f32) i
      = nz (v i) :=
  congrFun (Pointwise.nzflag_eq v (broadcast s (Scalar.ofBits (F := Ideal) .f32 0x00000000#32)) h) i

/-- An absolute value at an index is the entry's. -/
theorem absf_at {s : Shape} (v : FVec Ideal s .f32) (i : s.Idx) : absf v i = FloatOps.absf (v i) := rfl

/-- One tile pair's sum as the kernel takes it (last axis, middle axis, batch pair): the sum over the batch and the pairs
    of places of the pairwise term. -/
theorem pairSum_eq (x y : FVec Ideal S2x768 .f32) :
    k1_pay3 (F := Ideal) x y (ix2 (n0 := 1) (n1 := 1) 0 0)
      = ∑ b : Fin 2, ∑ p : Fin 768, ∑ q : Fin 768, pairTerm (x (ix2 b p)) (y (ix2 b q)) := by
  unfold k1_pay3
  refine (Sums.chain_2x768x768 _ reduces_S2x768x768_S2x768 reduces_S2x768_S2 shapeCasts_S2_S1x2 reduces_S1x2_S1
    shapeCasts_S1_S1x1 inpos_S1x1_p0_0).trans ?_
  rw [sum_idx3]
  refine Finset.sum_congr rfl fun b _ => Finset.sum_congr rfl fun p _ => Finset.sum_congr rfl fun q _ => ?_
  simp only [mulf_apply, maximumf_apply, subf_apply, absf_at, broadcast_apply, along_mid, along_last, flag_at, shapeCast_self]
  rfl

/-! ## The accumulator over the grid -/

/-- The accumulator's update at its one entry: what was there plus the point's sum. -/
theorem pay1_at (v39 v40 : FVec Ideal S1x1 .f32) :
    k1_pay1 (F := Ideal) v39 v40 (ix2 (n0 := 1) (n1 := 1) 0 0)
      = v40 (ix2 (n0 := 1) (n1 := 1) 0 0) + v39 (ix2 (n0 := 1) (n1 := 1) 0 0) := by
  unfold k1_pay1
  rw [shapeCast_self]
  rfl

/-- The accumulator's start: zero. -/
theorem pay2_at : k1_pay2 (F := Ideal) (ix2 (n0 := 1) (n1 := 1) 0 0) = 0 := zero_word

/-- Grid point t's tile pair sum, t = 12 * row + column (zero past the grid). -/
def pointSum (a : FVec Ideal S2x9216 .f32) (t : ℕ) : Ideal .f32 :=
  if h : t < 144 then
    k1_pay3 (F := Ideal) (tile a ⟨t / 12, by omega⟩) (tile a ⟨t % 12, by omega⟩) (ix2 (n0 := 1) (n1 := 1) 0 0)
  else 0

/-- The accumulator after point n holds the sum of the points' sums up to n. -/
theorem pushAt_eq (a : FVec Ideal S2x9216 .f32) : ∀ (n : ℕ) (h : n < 144),
    pushAt (F := Ideal) a n h (ix2 (n0 := 1) (n1 := 1) 0 0) = ∑ t ∈ Finset.range (n + 1), pointSum a t
  | 0, h => by
    rw [Finset.sum_range_one]
    show k1_pay1 (F := Ideal) _ (k1_pay2 (F := Ideal)) (ix2 (n0 := 1) (n1 := 1) 0 0) = _
    rw [pay1_at, pay2_at, zero_add]
    unfold pointSum
    rw [dif_pos h]
  | n + 1, h => by
    rw [Finset.sum_range_succ, ← pushAt_eq a n (by omega)]
    show k1_pay1 (F := Ideal) _ (pushAt (F := Ideal) a n _) (ix2 (n0 := 1) (n1 := 1) 0 0) = _
    rw [pay1_at]
    unfold pointSum
    rw [dif_pos h]

/-- The 144 points' sums, point by point, are the sums of the 12 x 12 tile pairs. -/
theorem grid_sum (a : FVec Ideal S2x9216 .f32) :
    ∑ t ∈ Finset.range 144, pointSum a t
      = ∑ i : Fin 12, ∑ j : Fin 12, k1_pay3 (F := Ideal) (tile a i) (tile a j) (ix2 (n0 := 1) (n1 := 1) 0 0) := by
  rw [Finset.sum_range (fun t => pointSum a t), ← Equiv.sum_comp gridSplit, Fintype.sum_prod_type]
  refine Finset.sum_congr rfl fun i _ => Finset.sum_congr rfl fun j _ => ?_
  have hi := i.isLt
  have hj := j.isLt
  show pointSum a (i.val * 12 + j.val) = _
  unfold pointSum
  rw [dif_pos (by omega)]
  have e1 : (⟨(i.val * 12 + j.val) / 12, by omega⟩ : Fin 12) = i := Fin.ext (by show (i.val * 12 + j.val) / 12 = i.val; omega)
  have e2 : (⟨(i.val * 12 + j.val) % 12, by omega⟩ : Fin 12) = j := Fin.ext (by show (i.val * 12 + j.val) % 12 = j.val; omega)
  rw [e1, e2]

/-- Tile i read at (b, p) is the array at (b, 768 i + p). -/
theorem tile_at (a : FVec Ideal S2x9216 .f32) (i : Fin 12) (b : Fin 2) (p : Fin 768) :
    tile (F := Ideal) a i (ix2 b p) = a (ix2 b (tileSplit (i, p))) := rfl

/-- Regrouping the sum over batch and all pairs of positions by the pair of tiles the two positions lie in. -/
theorem regroup {M : Type*} [AddCommMonoid M] (f : Fin 2 → Fin 9216 → Fin 9216 → M) :
    ∑ b, ∑ P, ∑ Q, f b P Q
      = ∑ i : Fin 12, ∑ j : Fin 12, ∑ b, ∑ p : Fin 768, ∑ q : Fin 768, f b (tileSplit (i, p)) (tileSplit (j, q)) := by
  calc ∑ b, ∑ P, ∑ Q, f b P Q
      = ∑ b, ∑ i : Fin 12, ∑ p : Fin 768, ∑ j : Fin 12, ∑ q : Fin 768, f b (tileSplit (i, p)) (tileSplit (j, q)) := by
        refine Finset.sum_congr rfl fun b _ => ?_
        rw [sum_tiles]
        exact Finset.sum_congr rfl fun i _ => Finset.sum_congr rfl fun p _ => sum_tiles _
    _ = ∑ i : Fin 12, ∑ b, ∑ p : Fin 768, ∑ j : Fin 12, ∑ q : Fin 768, f b (tileSplit (i, p)) (tileSplit (j, q)) :=
        Finset.sum_comm
    _ = ∑ i : Fin 12, ∑ b, ∑ j : Fin 12, ∑ p : Fin 768, ∑ q : Fin 768, f b (tileSplit (i, p)) (tileSplit (j, q)) :=
        Finset.sum_congr rfl fun i _ => Finset.sum_congr rfl fun b _ => Finset.sum_comm
    _ = ∑ i : Fin 12, ∑ j : Fin 12, ∑ b, ∑ p : Fin 768, ∑ q : Fin 768, f b (tileSplit (i, p)) (tileSplit (j, q)) :=
        Finset.sum_congr rfl fun i _ => Finset.sum_comm

/-! ## The reference's summand -/

section Reference

open Cert.ReferenceIdeal.Read

variable (x0 : FVec Ideal S2x4x96x96 .f32) (x1 : FVec Ideal S2x2x96x96 .f32)

/-- The flags broadcast along the middle axis read (b, P) at (b, P, Q) … -/
theorem idx_flag_mid (b : Fin 2) (P Q : Fin 9216) : idx_main_v56 (idx_main_v58 (ix3 b P Q)) = ix2 b P := by
  funext a; match a with | ⟨0, _⟩ => rfl | ⟨1, _⟩ => rfl
/-- … along the last axis (b, Q) … -/
theorem idx_flag_last (b : Fin 2) (P Q : Fin 9216) : idx_main_v57 (idx_main_v59 (ix3 b P Q)) = ix2 b Q := by
  funext a; match a with | ⟨0, _⟩ => rfl | ⟨1, _⟩ => rfl
/-- … and so do the entries of a: (b, P) along the middle axis … -/
theorem idx_val_mid (b : Fin 2) (P Q : Fin 9216) : idx_main_v47 (idx_main_v49 (ix3 b P Q)) = ix2 b P := by
  funext a; match a with | ⟨0, _⟩ => rfl | ⟨1, _⟩ => rfl
/-- … (b, Q) along the last. -/
theorem idx_val_last (b : Fin 2) (P Q : Fin 9216) : idx_main_v48 (idx_main_v50 (ix3 b P Q)) = ix2 b Q := by
  funext a; match a with | ⟨0, _⟩ => rfl | ⟨1, _⟩ => rfl

/-- The reference's flag at an index is the flag of a's entry. -/
theorem flag_ref (i : S2x9216.Idx) :
    val_main_v46 (F := Ideal) x0 x1 i = nz (val_main_v43 (F := Ideal) x0 x1 i) := by
  rw [val_main_v46_apply, val_main_v45_apply, val_main_v44_apply, val_main_cst_11_apply]
  rfl

/-- The reference's summand at (b, P, Q) is the pairwise term of a's entries (b, P) and (b, Q). -/
theorem summand_ref (b : Fin 2) (P Q : Fin 9216) :
    val_main_v61 (F := Ideal) x0 x1 (ix3 b P Q)
      = pairTerm (val_main_v43 (F := Ideal) x0 x1 (ix2 b P)) (val_main_v43 (F := Ideal) x0 x1 (ix2 b Q)) := by
  rw [val_main_v61_apply, val_main_v60_apply, val_main_v58_apply, val_main_v56_apply, idx_flag_mid,
    val_main_v59_apply, val_main_v57_apply, idx_flag_last, flag_ref, flag_ref,
    val_main_v55_apply, val_main_v54_apply, val_main_v53_apply, val_main_cst_12_apply, val_main_v52_apply,
    val_main_v51_apply, val_main_v49_apply, val_main_v47_apply, idx_val_mid, val_main_v50_apply, val_main_v48_apply,
    idx_val_last, val_main_call1_v0_apply, val_main_call1_cst_apply]
  rfl

/-- The reference's all-pairs sum, coordinate by coordinate. -/
theorem ref_sum :
    val_main_v62 (F := Ideal) x0 x1 ix0
      = ∑ b : Fin 2, ∑ P : Fin 9216, ∑ Q : Fin 9216,
          pairTerm (val_main_v43 (F := Ideal) x0 x1 (ix2 b P)) (val_main_v43 (F := Ideal) x0 x1 (ix2 b Q)) := by
  rw [val_main_v62_apply, val_main_cst_13_apply]
  show Ideal.ofBits .f32 0x00000000#32 + _ = _
  rw [zero_word, zero_add, sum_idx3]
  exact Finset.sum_congr rfl fun b _ => Finset.sum_congr rfl fun P _ => Finset.sum_congr rfl fun Q _ =>
    summand_ref x0 x1 b P Q

/-- The kernel's flattened map and the reference's a agree entry by entry: both are mean tag * mask laid row-major. -/
theorem flat_at (h : S2x1x96x96.ShapeCasts S2x9216) (b : Fin 2) (P : Fin 9216) :
    shapeCast S2x9216 (amap (F := Ideal) x0 x1) h (ix2 b P) = val_main_v43 (F := Ideal) x0 x1 (ix2 b P) := by
  rw [val_main_v43_apply, val_main_v42_apply, val_main_v40_apply, val_main_v41_apply, Pointwise.amap_eq]
  refine (shapeCast_apply _ h (ix2 b P) (idx_main_v40 (idx_main_v43 (ix2 b P))) ?_).trans ?_
  · rw [Shape.rowMajor_val_four, Shape.rowMajor_val_two]
    have hb := b.isLt
    have hP := P.isLt
    show (((((b.val * 9216 + P.val) / 9216 * 96 + (b.val * 9216 + P.val) / 96 % 96) * 96 + (b.val * 9216 + P.val) % 96) / 9216 * 1 + 0) * 96 + (((b.val * 9216 + P.val) / 9216 * 96 + (b.val * 9216 + P.val) / 96 % 96) * 96 + (b.val * 9216 + P.val) % 96) / 96 % 96) * 96 + (((b.val * 9216 + P.val) / 9216 * 96 + (b.val * 9216 + P.val) / 96 % 96) * 96 + (b.val * 9216 + P.val) % 96) % 96 = b.val * 9216 + P.val
    omega
  · rfl

/-- So the flattened map as a whole is the reference's a. -/
theorem flat_eq (h : S2x1x96x96.ShapeCasts S2x9216) :
    shapeCast S2x9216 (amap (F := Ideal) x0 x1) h = val_main_v43 (F := Ideal) x0 x1 := by
  funext i
  rw [eq_ix2 i]
  exact flat_at x0 x1 h (i 0) (i 1)

end Reference

/-! ## The accumulator after the last point is the reference's sum -/

variable (x0 : FVec Ideal S2x4x96x96 .f32) (x1 : FVec Ideal S2x2x96x96 .f32)

/-- The accumulator after the last of the 144 grid points, run on the flattened map a, is the reference's all-pairs sum. -/
theorem push_eq (h : S2x1x96x96.ShapeCasts S2x9216) :
    pushAt (F := Ideal) (shapeCast S2x9216 (amap (F := Ideal) x0 x1) h) 143 (by omega) (ValueIdx.ix2 (n0 := 1) (n1 := 1) 0 0)
      = val_main_v62 (F := Ideal) x0 x1 ValueIdx.ix0 := by
  rw [flat_eq x0 x1 h, ref_sum x0 x1, regroup]
  refine ((pushAt_eq _ 143 _).trans (grid_sum _)).trans ?_
  refine Finset.sum_congr rfl fun i _ => Finset.sum_congr rfl fun j _ => ?_
  exact pairSum_eq _ _

end Cert.KernelIdeal.Hand.Push

end
-- ==== Proof.Val.Bridge.lean ====
/-
  At the extended reals the kernel program's result and the reference's are one function of the two argument arrays: the
  four sums and the all-pairs sum agree (entry by entry the same summands, the sums regrouped), and the closing host
  arithmetic  0.01 * (5 den / max(1, msum) + pull / max(1, msum) + (push - nz))  is spelt alike on both sides.
-/
import proofs.«160447_j33363305955887_1_alg».proof.Proof.KI.Tail
import proofs.«160447_j33363305955887_1_alg».proof.Proof.Val.Scalars
import proofs.«160447_j33363305955887_1_alg».proof.Proof.Val.Push

noncomputable section

namespace Cert.KernelIdeal.Hand.Bridge

open Idealize.ShloMosaic Idealize.SL.Sem Cert.KernelIdeal Cert.KernelIdeal.Gen Cert.KernelIdeal.Hand
open Cert.ReferenceIdeal.Read (val_main_v67)

open Idealize.ShloMosaic.ValueIdx
open Cert.ReferenceIdeal.Read

/-- A one-by-one block re-laid as a scalar reads its one entry. -/
theorem scalar_of_block (p : FVec Ideal S1x1 .f32) (hc : S1x1.ShapeCasts S_) :
    shapeCast S_ p hc = fun _ => p (ix2 (n0 := 1) (n1 := 1) 0 0) := by
  funext i
  refine shapeCast_apply p hc i (ix2 (n0 := 1) (n1 := 1) 0 0) ?_
  have h0 : (S_.rowMajor i).val = 0 := Shape.rowMajorPi_zero _ i
  rw [h0, Shape.rowMajor_val_two]
  show 0 * 1 + 0 = 0
  rfl

/-- Column o of the row of four sums, cut out as a one-by-one block and re-laid as a scalar, is the row's entry (0, o). -/
theorem slot_eq (s : FVec Ideal S1x4 .f32) (o : Nat) (ho : o < 4) (h : S1x4.Slices ![0, o] S1x1) (hc : S1x1.ShapeCasts S_) :
    shapeCast S_ (extractStridedSlice S1x1 ![0, o] s h) hc = fun _ => s (ix2 (n0 := 1) (n1 := 4) 0 ⟨o, ho⟩) := by
  rw [scalar_of_block]
  funext _
  exact extractStridedSlice_apply _ s h (ix2 (n0 := 1) (n1 := 1) 0 0) (ix2 (n0 := 1) (n1 := 4) 0 ⟨o, ho⟩) (fun a => match a with
    | ⟨0, _⟩ => rfl
    | ⟨1, _⟩ => by show o = o + 0; rfl)

/-- The two programs compute the same loss. -/
theorem result_eq (x0 : FVec Ideal S2x4x96x96 .f32) (x1 : FVec Ideal S2x2x96x96 .f32) :
    resultK (F := Ideal) x0 x1 = val_main_v67 (F := Ideal) x0 x1 := by
  funext i
  have e0 : scal (F := Ideal) x0 x1 (ix2 (n0 := 1) (n1 := 4) 0 ⟨0, by omega⟩) = val_main_v21 (F := Ideal) x0 x1 i := by
    rw [eq_ix0 i]; exact Scalars.den_eq x0 x1
  have e1 : scal (F := Ideal) x0 x1 (ix2 (n0 := 1) (n1 := 4) 0 ⟨1, by omega⟩) = val_main_v38 (F := Ideal) x0 x1 i := by
    rw [eq_ix0 i]; exact Scalars.pull_eq x0 x1
  have e2 : scal (F := Ideal) x0 x1 (ix2 (n0 := 1) (n1 := 4) 0 ⟨2, by omega⟩) = val_main_v3 (F := Ideal) x1 i := by
    rw [eq_ix0 i]; exact Scalars.msum_eq x0 x1
  have e3 : scal (F := Ideal) x0 x1 (ix2 (n0 := 1) (n1 := 4) 0 ⟨3, by omega⟩) = val_main_v63 (F := Ideal) x0 x1 i := by
    rw [eq_ix0 i]; exact Scalars.nz_eq x0 x1
  have e4 : pushAt (F := Ideal) (shapeCast S2x9216 (amap (F := Ideal) x0 x1) Facts₀.shapeCasts_S2x1x96x96_S2x9216) 143 (by omega)
      (ix2 (n0 := 1) (n1 := 1) 0 0) = val_main_v62 (F := Ideal) x0 x1 i := by
    rw [eq_ix0 i]; exact Push.push_eq x0 x1 _
  rw [val_main_v67_apply, val_main_v66_apply, val_main_v65_apply, val_main_v64_apply, val_main_v23_apply, val_main_v39_apply,
    val_main_v22_apply, val_main_v4_apply, val_main_cst_15_apply, val_main_cst_6_apply, val_main_cst_0_apply,
    ← e0, ← e1, ← e2, ← e3, ← e4]
  unfold resultK tailK aflat
  rw [slot_eq _ 0 (by omega), slot_eq _ 1 (by omega), slot_eq _ 2 (by omega), slot_eq _ 3 (by omega), scalar_of_block]
  rfl

end Cert.KernelIdeal.Hand.Bridge

end
-- ==== Proof.lean ====
/-
  The certificate of a two-region kernel against its jnp reference, over the extended reals.

  The kernel's first region (one grid point) computes, from the tag prediction x0 : f32[2,4,96,96] and the label
  x1 : f32[2,2,96,96] (target density and mask), four whole-array sums — the masked smooth-L1 density loss, the squared
  deviation of the masked normalised tags from their mean, the mask count and the count of positions where a = mean * mask
  is not zero — and the map a. Its second region walks the 12 x 12 pairs of 768-wide column tiles of a (laid out as two rows
  of 9216) and accumulates the all-pairs term  nz_p nz_q max(1 - |a_p - a_q|, 0); twenty host operations close with
  0.01 * (5 den / max(1, msum) + pull / max(1, msum) + (push - nz)).

  Frames (both kernel programs): the run of @main from the two regions' records (each region's body run on its staging
  buffers; the second region's output block carried from point to point; its two input windows share the array a, held
  half and half) ends with every unscoped buffer at a named valuation, the arguments as launched. The reference is a host
  program: its run is read back operation by operation.

  The value claim: at the extended reals the kernel's result buffer holds `resultK x0 x1` and the reference's
  `val_main_v67 x0 x1`; the two are one function: entry by entry the summands agree, and each sum taken axis by axis,
  tile pair by tile pair, is the sum over all indices — addition of extended reals is commutative and associative, so no
  finiteness of the inputs is used.
-/
import proofs.«160447_j33363305955887_1_alg».proof.Defs
import proofs.«160447_j33363305955887_1_alg».proof.Proof.Gen.Kernel
import proofs.«160447_j33363305955887_1_alg».proof.Proof.Gen.KernelIdeal
import proofs.«160447_j33363305955887_1_alg».proof.Proof.Gen.ReferenceIdeal
import proofs.«160447_j33363305955887_1_alg».proof.Proof.Gen.Pre_finite_inputs
import proofs.«160447_j33363305955887_1_alg».proof.Proof.K.Claims
import proofs.«160447_j33363305955887_1_alg».proof.Proof.KI.ValueRun
import proofs.«160447_j33363305955887_1_alg».proof.Proof.Val.Bridge
import Idealize.ShloMosaic.Adequacy
import Idealize.ShloMosaic.Init

noncomputable section

namespace Cert.Proof

open Idealize.ShloMosaic Idealize.SL.Sem

/-- The word-level kernel runs to the end and leaves its arguments. -/
theorem frame_k : @Cert.frame_Kernel Cert.Kernel.Gen.facts Cert.Pre_finite_inputs.Gen.facts :=
  fun m ρ _ => Cert.Kernel.Hand.frame_run (F := Bits) m ρ

/-- The idealized kernel runs to the end and leaves its arguments. -/
theorem frame_ki : @Cert.frame_KernelIdeal Cert.KernelIdeal.Gen.facts Cert.Pre_finite_inputs.Gen.facts :=
  fun m ρ _ => Cert.KernelIdeal.Hand.frame_run (F := Ideal) m ρ

/-- The reference is a host program: its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- From memories that agree on the arguments both programs end with the same loss. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Hand.resultK (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1)),
    Cert.KernelIdeal.Hand.value_run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v67_eq, (hagree c).1, (hagree c).2]
  exact (Cert.KernelIdeal.Hand.Bridge.result_eq _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
